-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x256 .f32) (main_arg1 : IVec S2x1600000 32) (main_arg2 : FVec F S256x128 .f32) (main_arg3 : FVec F S128 .f32) (main_arg4 : FVec F S128x40 .f32) (main_arg5 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S50000x128 : Shape := ⟨2, ![50000, 128]⟩
abbrev S5000x256 : Shape := ⟨2, ![5000, 256]⟩
abbrev S5000x128 : Shape := ⟨2, ![5000, 128]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x40 : Shape := ⟨2, ![50000, 40]⟩
abbrev S5000x40 : Shape := ⟨2, ![5000, 40]⟩
abbrev S1650000x40 : Shape := ⟨2, ![1650000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 118
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000x128, .f32⟩
  | .hbm, ⟨11, _⟩ => ⟨S50000, .i32⟩
  | .hbm, ⟨12, _⟩ => ⟨S1650000, .i32⟩
  | .hbm, ⟨13, _⟩ => ⟨S1650000, .i32⟩
  | .hbm, ⟨14, _⟩ => ⟨S_, .f32⟩
  | .hbm, ⟨15, _⟩ => ⟨S1650000, .f32⟩
  | .hbm, ⟨16, _⟩ => ⟨S_, .f32⟩
  | .hbm, ⟨17, _⟩ => ⟨S50000, .f32⟩
  | .hbm, ⟨18, _⟩ => ⟨S1650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S1650000, .i32⟩
  | .hbm, ⟨30, _⟩ => ⟨S1650000, .i1⟩
  | .hbm, ⟨31, _⟩ => ⟨S_, .i32⟩
  | .hbm, ⟨32, _⟩ => ⟨S1650000, .i32⟩
  | .hbm, ⟨33, _⟩ => ⟨S1650000, .i32⟩
  | .hbm, ⟨34, _⟩ => ⟨S1650000, .i32⟩
  | .hbm, ⟨35, _⟩ => ⟨S1650000x1, .i32⟩
  | .hbm, ⟨36, _⟩ => ⟨S1650000, .f32⟩
  | .hbm, ⟨37, _⟩ => ⟨S_, .i32⟩
  | .hbm, ⟨38, _⟩ => ⟨S1650000, .i32⟩
  | .hbm, ⟨39, _⟩ => ⟨S1650000, .i1⟩
  | .hbm, ⟨40, _⟩ => ⟨S_, .i32⟩
  | .hbm, ⟨41, _⟩ => ⟨S1650000, .i32⟩
  | .hbm, ⟨42, _⟩ => ⟨S1650000, .i32⟩
  | .hbm, ⟨43, _⟩ => ⟨S1650000, .i32⟩
  | .hbm, ⟨44, _⟩ => ⟨S1650000x1, .i32⟩
  | .hbm, ⟨45, _⟩ => ⟨S1650000, .f32⟩
  | .hbm, ⟨46, _⟩ => ⟨S1650000, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S50000x128, .f32⟩
  | .hbm, ⟨64, _⟩ => ⟨S50000x40, .f32⟩
  | .hbm, ⟨65, _⟩ => ⟨S50000, .i32⟩
  | .hbm, ⟨66, _⟩ => ⟨S1650000, .i32⟩
  | .hbm, ⟨67, _⟩ => ⟨S1650000, .i32⟩
  | .hbm, ⟨68, _⟩ => ⟨S_, .f32⟩
  | .hbm, ⟨69, _⟩ => ⟨S1650000, .f32⟩
  | .hbm, ⟨70, _⟩ => ⟨S_, .f32⟩
  | .hbm, ⟨71, _⟩ => ⟨S50000, .f32⟩
  | .hbm, ⟨72, _⟩ => ⟨S1650000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .i1⟩
  | .hbm, ⟨77, _⟩ => ⟨S50000, .f32⟩
  | .hbm, ⟨78, _⟩ => ⟨S_, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S_, .i32⟩
  | .hbm, ⟨83, _⟩ => ⟨S1650000, .i32⟩
  | .hbm, ⟨84, _⟩ => ⟨S1650000, .i1⟩
  | .hbm, ⟨85, _⟩ => ⟨S_, .i32⟩
  | .hbm, ⟨86, _⟩ => ⟨S1650000, .i32⟩
  | .hbm, ⟨87, _⟩ => ⟨S1650000, .i32⟩
  | .hbm, ⟨88, _⟩ => ⟨S1650000, .i32⟩
  | .hbm, ⟨89, _⟩ => ⟨S1650000x1, .i32⟩
  | .hbm, ⟨90, _⟩ => ⟨S1650000, .f32⟩
  | .hbm, ⟨91, _⟩ => ⟨S_, .i32⟩
  | .hbm, ⟨92, _⟩ => ⟨S1650000, .i32⟩
  | .hbm, ⟨93, _⟩ => ⟨S1650000, .i1⟩
  | .hbm, ⟨94, _⟩ => ⟨S_, .i32⟩
  | .hbm, ⟨95, _⟩ => ⟨S1650000, .i32⟩
  | .hbm, ⟨96, _⟩ => ⟨S1650000, .i32⟩
  | .hbm, ⟨97, _⟩ => ⟨S1650000, .i32⟩
  | .hbm, ⟨98, _⟩ => ⟨S1650000x1, .i32⟩
  | .hbm, ⟨99, _⟩ => ⟨S1650000, .f32⟩
  | .hbm, ⟨100, _⟩ => ⟨S1650000, .f32⟩
  | .hbm, ⟨101, _⟩ => ⟨S_, .i32⟩
  | .hbm, ⟨102, _⟩ => ⟨S1650000, .i32⟩
  | .hbm, ⟨103, _⟩ => ⟨S1650000, .i1⟩
  | .hbm, ⟨104, _⟩ => ⟨S_, .i32⟩
  | .hbm, ⟨105, _⟩ => ⟨S1650000, .i32⟩
  | .hbm, ⟨106, _⟩ => ⟨S1650000, .i32⟩
  | .hbm, ⟨107, _⟩ => ⟨S1650000, .i32⟩
  | .hbm, ⟨108, _⟩ => ⟨S1650000x1, .i32⟩
  | .hbm, ⟨109, _⟩ => ⟨S1650000x40, .f32⟩
  | .hbm, ⟨110, _⟩ => ⟨S1650000x1, .f32⟩
  | .hbm, ⟨111, _⟩ => ⟨S1650000x40, .f32⟩
  | .hbm, ⟨112, _⟩ => ⟨S1650000x40, .f32⟩
  | .hbm, ⟨113, _⟩ => ⟨S_, .f32⟩
  | .hbm, ⟨114, _⟩ => ⟨S50000x40, .f32⟩
  | .hbm, ⟨115, _⟩ => ⟨S1650000x1, .i32⟩
  | .hbm, ⟨116, _⟩ => ⟨S50000x40, .f32⟩
  | .hbm, ⟨117, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S40, .f32⟩
  | .local _ .vmem, ⟨18, _⟩ => ⟨S5000x40, .f32⟩
  | .local _ .vmem, ⟨19, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_call1_v0 : Ref sig .tc := ⟨.hbm, 79, rfl⟩
abbrev main_call1_v1 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_c_18 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_19 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  dot_S5000x256_S256x128_S5000x128_1_0_0_1_n_n_wf : DotDims.WF S5000x256 S256x128 S5000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x40_S5000x40_1_0_0_1_n_n_wf : DotDims.WF S5000x128 S128x40 S5000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S40.size a ≤ S40.size a
  hwx3_1 : ∀ i : grid3.Coords, EltTy.bits .f32 = 32 ∨ (Rect.block (s := S40) S40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S50000x128 : Shape := ⟨2, ![50000, 128]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x40 : Shape := ⟨2, ![50000, 40]⟩
abbrev S1650000x40 : Shape := ⟨2, ![1650000, 40]⟩
abbrev S1x40 : Shape := ⟨2, ![1, 40]⟩
abbrev S50000x1 : Shape := ⟨2, ![50000, 1]⟩

abbrev nBuf : Space → Nat
  | .hbm => 140
  | .vmem => 0
  | .smem => 0
  | _ => 0

abbrev hbmTy0_0 (i : Nat) : BufTy := match i % 128 with
  | 0 => ⟨S50000x256, .f32⟩
  | 1 => ⟨S2x1600000, .i32⟩
  | 2 => ⟨S256x128, .f32⟩
  | 3 => ⟨S128, .f32⟩
  | 4 => ⟨S128x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S50000x128, .f32⟩
  | 11 => ⟨S50000, .i32⟩
  | 12 => ⟨S1650000, .i32⟩
  | 13 => ⟨S1650000, .i32⟩
  | 14 => ⟨S_, .f32⟩
  | 15 => ⟨S1650000, .f32⟩
  | 16 => ⟨S_, .f32⟩
  | 17 => ⟨S50000, .f32⟩
  | 18 => ⟨S1650000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S1650000, .i32⟩
  | 30 => ⟨S1650000, .i1⟩
  | 31 => ⟨S_, .i32⟩
  | 32 => ⟨S1650000, .i32⟩
  | 33 => ⟨S1650000, .i32⟩
  | 34 => ⟨S1650000, .i32⟩
  | 35 => ⟨S1650000x1, .i32⟩
  | 36 => ⟨S1650000, .f32⟩
  | 37 => ⟨S_, .i32⟩
  | 38 => ⟨S1650000, .i32⟩
  | 39 => ⟨S1650000, .i1⟩
  | 40 => ⟨S_, .i32⟩
  | 41 => ⟨S1650000, .i32⟩
  | 42 => ⟨S1650000, .i32⟩
  | 43 => ⟨S1650000, .i32⟩
  | 44 => ⟨S1650000x1, .i32⟩
  | 45 => ⟨S1650000, .f32⟩
  | 46 => ⟨S1650000, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000x128, .f32⟩
  | 56 => ⟨S1650000x1, .f32⟩
  | 57 => ⟨S1650000x128, .f32⟩
  | 58 => ⟨S1650000x128, .f32⟩
  | 59 => ⟨S_, .f32⟩
  | 60 => ⟨S50000x128, .f32⟩
  | 61 => ⟨S1650000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x40, .f32⟩
  | 70 => ⟨S50000, .i32⟩
  | 71 => ⟨S1650000, .i32⟩
  | 72 => ⟨S1650000, .i32⟩
  | 73 => ⟨S_, .f32⟩
  | 74 => ⟨S1650000, .f32⟩
  | 75 => ⟨S_, .f32⟩
  | 76 => ⟨S50000, .f32⟩
  | 77 => ⟨S1650000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S1650000, .i32⟩
  | 89 => ⟨S1650000, .i1⟩
  | 90 => ⟨S_, .i32⟩
  | 91 => ⟨S1650000, .i32⟩
  | 92 => ⟨S1650000, .i32⟩
  | 93 => ⟨S1650000, .i32⟩
  | 94 => ⟨S1650000x1, .i32⟩
  | 95 => ⟨S1650000, .f32⟩
  | 96 => ⟨S_, .i32⟩
  | 97 => ⟨S1650000, .i32⟩
  | 98 => ⟨S1650000, .i1⟩
  | 99 => ⟨S_, .i32⟩
  | 100 => ⟨S1650000, .i32⟩
  | 101 => ⟨S1650000, .i32⟩
  | 102 => ⟨S1650000, .i32⟩
  | 103 => ⟨S1650000x1, .i32⟩
  | 104 => ⟨S1650000, .f32⟩
  | 105 => ⟨S1650000, .f32⟩
  | 106 => ⟨S_, .i32⟩
  | 107 => ⟨S1650000, .i32⟩
  | 108 => ⟨S1650000, .i1⟩
  | 109 => ⟨S_, .i32⟩
  | 110 => ⟨S1650000, .i32⟩
  | 111 => ⟨S1650000, .i32⟩
  | 112 => ⟨S1650000, .i32⟩
  | 113 => ⟨S1650000x1, .i32⟩
  | 114 => ⟨S1650000x40, .f32⟩
  | 115 => ⟨S1650000x1, .f32⟩
  | 116 => ⟨S1650000x40, .f32⟩
  | 117 => ⟨S1650000x40, .f32⟩
  | 118 => ⟨S_, .f32⟩
  | 119 => ⟨S50000x40, .f32⟩
  | 120 => ⟨S1650000x1, .i32⟩
  | 121 => ⟨S50000x40, .f32⟩
  | 122 => ⟨S1x40, .f32⟩
  | 123 => ⟨S50000x40, .f32⟩
  | 124 => ⟨S50000x40, .f32⟩
  | 125 => ⟨S_, .f32⟩
  | 126 => ⟨S50000, .f32⟩
  | 127 => ⟨S_, .f32⟩
  | _ => ⟨S50000x256, .f32⟩

abbrev hbmTy0_1 (i : Nat) : BufTy := match i % 128 with
  | 0 => ⟨S50000, .f32⟩
  | 1 => ⟨S50000, .f32⟩
  | 2 => ⟨S50000x1, .f32⟩
  | 3 => ⟨S50000x40, .f32⟩
  | 4 => ⟨S50000x40, .f32⟩
  | 5 => ⟨S50000x40, .f32⟩
  | 6 => ⟨S_, .f32⟩
  | 7 => ⟨S50000, .f32⟩
  | 8 => ⟨S50000x1, .f32⟩
  | 9 => ⟨S50000x1, .f32⟩
  | 10 => ⟨S50000x40, .f32⟩
  | 11 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x256_S256x128_S50000x128_1_0_0_1_n_n_wf : DotDims.WF S50000x256 S256x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x40_S50000x40_1_0_0_1_n_n_wf : DotDims.WF S50000x128 S128x40 S50000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

class Facts : Prop extends Facts₀ where

variable [Facts]
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowBlockProduct.lean ====
/-
  A matrix product tiled by ROW BLOCKS is the whole product (general in the sizes).

  The product of an [R, K] matrix and a [K, N] matrix over the extended reals, as one function of the two
  arrays: entry (p, q) is the sum over k of A (p, k) · B (k, q).

  Both programs compute it. The host's general dot product with the plain dimension numbers IS this
  function (`dotGeneral_eq_prod`). A kernel that holds only `Rb` consecutive rows of A, starting at row `o`,
  and multiplies them into a zero accumulator, leaves the rows o … o + Rb − 1 of the same function
  (`matmul_rows`): the sum over k at an entry reads one row of A and one column of B, so cutting A by rows
  cuts the product by rows. No finiteness is needed: nothing is regrouped, the two sums have the same terms.
-/
import proofs.«119146_j33277406609480_1_alg».proof.Proof.LibPlainDot

open scoped BigOperators

noncomputable section

namespace Idealize.ShloMosaic.RowBlockProduct

open Idealize.ShloMosaic Idealize.ShloMosaic.ValueIdx Idealize.ShloMosaic.PlainDot

variable {R Rb K N : ℕ}

/-- The matrix product at the extended reals, index by index. -/
def prod (A : (⟨2, ![R, K]⟩ : Shape).Idx → EReal) (B : (⟨2, ![K, N]⟩ : Shape).Idx → EReal) :
    (⟨2, ![R, N]⟩ : Shape).Idx → EReal :=
  fun i => ∑ k : Fin K, A (ix2 (i 0) k) * B (ix2 k (i 1))

theorem prod_apply (A : (⟨2, ![R, K]⟩ : Shape).Idx → EReal) (B : (⟨2, ![K, N]⟩ : Shape).Idx → EReal)
    (p : Fin R) (q : Fin N) : prod A B (ix2 p q) = ∑ k : Fin K, A (ix2 p k) * B (ix2 k q) := rfl

/-- The host's general dot product with the plain dimension numbers is the product, whatever the operands'
    float formats (a format is not seen at the extended reals). -/
theorem dotGeneral_eq_prod {φ₁ φ₂ : FTy}
    {d : DotDims (⟨2, ![R, K]⟩ : Shape) (⟨2, ![K, N]⟩ : Shape) (⟨2, ![R, N]⟩ : Shape)} (h : IsPlain d)
    (prec : Option ContractPrecision) (l : FVec Ideal (⟨2, ![R, K]⟩ : Shape) φ₁) (r : FVec Ideal (⟨2, ![K, N]⟩ : Shape) φ₂) :
    Host.dotGeneral (F := Ideal) d prec l r = prod l r := by
  funext j
  obtain ⟨p, q, rfl⟩ : ∃ (p : Fin R) (q : Fin N), j = ix2 p q := ⟨j 0, j 1, eq_ix2 j⟩
  exact (Ideal.dotGeneral_apply d prec .single l r (ix2 p q)).trans (sum_contr h l r p q)

/-- A kernel's product of `Rb` rows of `A` (the rows from `o` on) with `B`, into the zero accumulator, read at
    (p, q), is the whole product at row `o + p`. -/
theorem matmul_rows {φ₁ φ₂ : FTy}
    {d : DotDims (⟨2, ![Rb, K]⟩ : Shape) (⟨2, ![K, N]⟩ : Shape) (⟨2, ![Rb, N]⟩ : Shape)} (h : IsPlain d)
    (prec : Option ContractPrecision)
    (A : (⟨2, ![R, K]⟩ : Shape).Idx → EReal) (B : (⟨2, ![K, N]⟩ : Shape).Idx → EReal)
    (x0 : FVec Ideal (⟨2, ![Rb, K]⟩ : Shape) φ₁) (x1 : FVec Ideal (⟨2, ![K, N]⟩ : Shape) φ₂)
    (o : ℕ) (ho : o + Rb ≤ R)
    (hx0 : ∀ (p : Fin Rb) (k : Fin K), x0 (ix2 p k) = A (ix2 ⟨o + p.val, by have := p.isLt; omega⟩ k))
    (hx1 : ∀ (k : Fin K) (q : Fin N), x1 (ix2 k q) = B (ix2 k q))
    (p : Fin Rb) (q : Fin N) :
    matmul (F := Ideal) d prec x0 x1 (constant (⟨2, ![Rb, N]⟩ : Shape) .f32 0x00000000#32) (ix2 p q)
      = prod A B (ix2 ⟨o + p.val, by have := p.isLt; omega⟩ q) := by
  rw [prod_apply]
  refine ((Ideal.matmul_constant_zero_apply d prec x0 x1 (ix2 p q)).trans (sum_contr h x0 x1 p q)).trans ?_
  exact Finset.sum_congr rfl fun k _ => by rw [hx0 p k, hx1 k q]

end Idealize.ShloMosaic.RowBlockProduct

end
-- ==== Proof.Region0.lean ====
/-
  The first launch: the first layer's projection.

  The launch cuts the rows of the node-feature matrix into ten blocks of 5000 rows; at block `t` the body multiplies
  rows 5000 t … 5000 t + 4999 of the features by the whole weight matrix (the operands' narrowing to bf16 is the
  identity on the extended reals) into a zero accumulator and stores the 5000 × 128 result as rows
  5000 t … 5000 t + 4999 of the output. An entry of a matrix product reads one row of its left operand, so each
  stored block is that block of the whole product, and the ten blocks cover the output: after the launch the output
  array is the product of the two arrays as the launch found them.
-/
import proofs.«119146_j33277406609480_1_alg».proof.Proof.Gen.KernelIdeal.Frame
import proofs.«119146_j33277406609480_1_alg».proof.Proof.LibRowBlockProduct
import Idealize.ShloMosaic.Lib.Pipeline.Value
import Idealize.ShloMosaic.Lib.ValueIdx

set_option maxRecDepth 16384

open scoped BigOperators

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat Cfg Window)
open Idealize.SL.Sem

variable (V : (c : Dev nD) → (b : Ref sig .tc) → Buf (Elt Ideal) ((c : Thread nD τ).loc b))

theorem hzero0 : (![0, 0] : Fin 2 → Nat) = fun _ => 0 := funext fun a => by fin_cases a <;> rfl

/-- The first projection's dimension numbers are the plain ones: rows by columns, one contracted axis. -/
theorem plain0 : PlainDot.IsPlain (R := 5000) (K := 256) (N := 128) dot_S5000x256_S256x128_S5000x128_1_0_0_1_n_n :=
  ⟨rfl, rfl, rfl, rfl, rfl, rfl⟩

/-- The body's stored value at (p, q), when its left block holds the rows from `o` on of `A` and its right block is `B`:
    the product of `A` and `B` at row `o + p`. -/
theorem pay0_apply (A : S50000x256.Idx → EReal) (B : S256x128.Idx → EReal)
    (x0 : Vec Ideal S5000x256 .f32) (x1 : Vec Ideal S256x128 .f32) (o : ℕ) (ho : o + 5000 ≤ 50000)
    (hx0 : ∀ (p : Fin 5000) (k : Fin 256), x0 (ix2 p k) = A (ix2 ⟨o + p.val, by have := p.isLt; omega⟩ k))
    (hx1 : ∀ (k : Fin 256) (q : Fin 128), x1 (ix2 k q) = B (ix2 k q)) (p : Fin 5000) (q : Fin 128) :
    k0_pay1 (F := Ideal) x0 x1 (ix2 p q)
      = RowBlockProduct.prod (R := 50000) (K := 256) (N := 128) A B (ix2 ⟨o + p.val, by have := p.isLt; omega⟩ q) := by
  unfold k0_pay1
  refine RowBlockProduct.matmul_rows (R := 50000) plain0 none A B _ _ o ho (fun p' k => ?_) hx1 p q
  first
    | exact hx0 p' k
    | (rw [shapeCast_self]; exact hx0 p' k)

/-- Where the launch's index maps send point `t`: the feature and output blocks to block row `t`, the weights to their
    one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the launch found them. -/
theorem flushed0 (c : Dev nD) (t : Fin cfg0.N) :
    (dat0 V c).flushed 2 t = ((cfg0.win 2).blk t).view.read (Elt Ideal)
      (RowBlockProduct.prod (R := 50000) (K := 256) (N := 128) (V c main_arg0) (V c main_arg2)) := by
  show (cfg0.win 2).cut (grid0.coords t) ((dat0 V c).after 2 t) = _
  rw [after0_2]
  unfold out0_2
  rw [View.canon_unit_zero hzero0]
  simp only [View.ld_unit_zero (S := S5000x256) hzero0, View.ld_unit_zero (S := S256x128) hzero0]
  obtain ⟨e0, e1, e2, e3, e4, e5⟩ := idx_facts0 t
  have ht : t.val < 10 := by have h : t.val < grid0.N := t.isLt; rw [N_0] at h; exact h
  funext j
  obtain ⟨p, q, rfl⟩ : ∃ (p : Fin 5000) (q : Fin 128), j = ix2 p q := ⟨j 0, j 1, eq_ix2 j⟩
  have hp : p.val < 5000 := p.isLt
  have hemb : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (F := Ideal) (iblk0 V c 0 t) (iblk0 V c 1 t) (ix2 p q)
    = RowBlockProduct.prod (R := 50000) (K := 256) (N := 128) (V c main_arg0) (V c main_arg2) (((cfg0.win 2).blk t).view.emb (ix2 p q))
  rw [hemb]
  refine pay0_apply (V c main_arg0) (V c main_arg2) _ _ (t.val * 5000) (by omega) ?_ ?_ p q
  · intro p' k
    have hp' : p'.val < 5000 := p'.isLt
    show V c main_arg0 (((cfg0.win 0).blk t).view.emb (ix2 p' k)) = _
    refine congrArg (V c main_arg0) ?_
    funext a; apply Fin.ext
    match a with
    | ⟨0, _⟩ => show win0_0.index t (0 : Fin 2) * 5000 + 1 * p'.val = t.val * 5000 + p'.val; omega
    | ⟨1, _⟩ => show win0_0.index t (1 : Fin 2) * 256 + 1 * k.val = k.val; omega
  · intro k q'
    show V c main_arg2 (((cfg0.win 1).blk t).view.emb (ix2 k q')) = _
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 128 + 1 * q'.val = q'.val; omega

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4).slice (win0_2.rect t)).set ↔ _
  rw [View.set_slice_whole, Rect.mem_set_unit]
  exact Iff.rfl

/-- Every row of the output lies in the block of the point that is its row number divided by 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by show _ < grid0.N; rw [N_0]; omega⟩
  obtain ⟨-, -, -, -, e4, e5⟩ := idx_facts0 t
  have e4' : win0_2.index t (0 : Fin 2) = (i 0).val / 5000 := e4
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the first launch its output array is the product of the feature and weight arrays as the launch found them. -/
theorem final0 (c : Dev nD) :
    (dat0 V c).arrAt 2 cfg0.N
      = RowBlockProduct.prod (R := 50000) (K := 256) (N := 128) (V c main_arg0) (V c main_arg2) :=
  (dat0 V c).arrAt_eq_of_cover 2 _ (fun t _ => flushed0 V c t) cover0

end Cert.KernelIdeal.Regions

end
-- ==== Proof.Spec.lean ====
/-
  What the four kernel launches compute, as functions of whole arrays over the extended reals, general in the sizes.

  * the matrix product is `RowBlockProduct.prod` (entry (p, q) is the sum over k of A (p, k) · B (k, q));
  * `biasRelu o X b`: entry (p, q) is max (X (p, q) + b q, o), with `o` the value of the zero literal;
  * `rowMax a z`: the maximum of a row `z`, folded from `a` (the value of the −∞ literal);
  * `lsmRow a z q`: the log-softmax of the row `z` at `q`, spelt as both programs spell it:
    (z q − M) − log (∑ k, exp (z k − M)) with M the row's maximum;
  * `biasLsm a X b`: entry (p, q) is the log-softmax at q of the row k ↦ X (p, k) + b k.

  Each of these depends, at an entry (p, q), on row p of X only: so a kernel that computes it on blocks of whole rows
  computes the same array.
-/
import Idealize.ShloMosaic.Lib.ValueIdx
import Idealize.ShloMosaic.PureOps.Ideal
import Mathlib.Data.Finset.Fold

open scoped BigOperators

noncomputable section

namespace Cert.Spec

open Idealize.ShloMosaic Idealize.ShloMosaic.ValueIdx

variable {R N : ℕ}

/-- A per-column bias added to every row, then the maximum with `o`. -/
def biasRelu (o : EReal) (X : (⟨2, ![R, N]⟩ : Shape).Idx → EReal) (b : (⟨1, ![N]⟩ : Shape).Idx → EReal) :
    (⟨2, ![R, N]⟩ : Shape).Idx → EReal :=
  fun i => max (X i + b (ix1 (i 1))) o

theorem biasRelu_apply (o : EReal) (X : (⟨2, ![R, N]⟩ : Shape).Idx → EReal) (b : (⟨1, ![N]⟩ : Shape).Idx → EReal)
    (p : Fin R) (q : Fin N) : biasRelu o X b (ix2 p q) = max (X (ix2 p q) + b (ix1 q)) o := rfl

/-- The maximum of a row, folded from `a`. -/
def rowMax (a : EReal) (z : Fin N → EReal) : EReal := (Finset.univ : Finset (Fin N)).fold max a z

/-- Folding from `a` gives at least `a`: taking the maximum with `a` once more changes nothing. -/
theorem max_rowMax (a : EReal) (z : Fin N → EReal) : max a (rowMax a z) = rowMax a z :=
  max_eq_right ((Finset.le_fold_max a).mpr (Or.inl le_rfl))

/-- The log-softmax of a row at `q`: the entry less the row's maximum, less the logarithm of the sum of the
    exponentials of the entries less the maximum. -/
def lsmRow (a : EReal) (z : Fin N → EReal) (q : Fin N) : EReal :=
  (z q - rowMax a z) - Ideal.log (∑ k : Fin N, Ideal.exp (z k - rowMax a z))

/-- A per-column bias added to every row, then the log-softmax of each row. -/
def biasLsm (a : EReal) (X : (⟨2, ![R, N]⟩ : Shape).Idx → EReal) (b : (⟨1, ![N]⟩ : Shape).Idx → EReal) :
    (⟨2, ![R, N]⟩ : Shape).Idx → EReal :=
  fun i => lsmRow a (fun k => X (ix2 (i 0) k) + b (ix1 k)) (i 1)

theorem biasLsm_apply (a : EReal) (X : (⟨2, ![R, N]⟩ : Shape).Idx → EReal) (b : (⟨1, ![N]⟩ : Shape).Idx → EReal)
    (p : Fin R) (q : Fin N) : biasLsm a X b (ix2 p q) = lsmRow a (fun k => X (ix2 p k) + b (ix1 k)) q := rfl

end Cert.Spec

end
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.PayEpilogue.lean ====
/-
  The two elementwise kernel bodies read at an entry.

  The bias-and-relu body stores, at (p, q), the entry plus its column's bias, or zero if that is larger; the
  bias-and-log-softmax body stores, at (p, q), the log-softmax at q of row p of the block with the bias added.
-/
import proofs.«119146_j33277406609480_1_alg».proof.Proof.Gen.KernelIdeal.Skeleton
import proofs.«119146_j33277406609480_1_alg».proof.Proof.Spec
import proofs.«119146_j33277406609480_1_alg».proof.Proof.LibRowSpread
import proofs.«119146_j33277406609480_1_alg».proof.Proof.LibColumn
import Idealize.ShloMosaic.Lib.ValueIdx
import Idealize.ShloMosaic.Lib.Pipeline.Value
import Idealize.ShloMosaic.PureOps.Ideal.Laws

noncomputable section

namespace Cert.KernelIdeal.Regions

open Cert.KernelIdeal Cert.KernelIdeal.Gen Idealize.ShloMosaic Idealize.ShloMosaic.ValueIdx
open scoped BigOperators

/-- The bias-and-relu body's stored value at (p, q): the entry plus the bias of its column, or zero if that is larger. -/
theorem pay1_apply (b : Vec Ideal S128 .f32) (x : Vec Ideal S5000x128 .f32) (p : Fin 5000) (q : Fin 128) :
    k1_pay1 (F := Ideal) b x (ix2 p q) = max (x (ix2 p q) + b (ix1 q)) (0 : EReal) := by
  unfold k1_pay1
  show max (shapeCast S5000x128 x shapeCasts_S5000x128_S5000x128 (ix2 p q)
      + broadcastTo S5000x128 (shapeCast S1x128 b shapeCasts_S128_S1x128) broadcasts_S1x128_S5000x128 (ix2 p q))
      (Ideal.ofBits .f32 0x00000000#32) = _
  rw [shapeCast_self, Cert.Lib.RowSpread.spread_asRow_apply, Ideal.ofBits_zero_f32]

/-- Reducing the minor axis of an [m, n] array to [m]: the source index over row p with coordinate k inserted on
    the reduced axis is (p, k). -/
theorem lift_minor {m n : ℕ} (h : (⟨2, ![m, n]⟩ : Shape).Reduces [1] ⟨1, ![m]⟩) (p : Fin m) (k : Fin n) :
    h.lift (ix1 p) k = ix2 p k := by
  funext c
  apply Fin.ext
  match c with
  | ⟨0, _⟩ => rfl
  | ⟨1, _⟩ => rfl

/-- A per-row value of a [5000, 40] block, kept as a column and spread over the lanes, reads at (p, q) the row's value. -/
theorem keepSpread_apply (w : FVec Ideal S5000 .f32) (p : Fin 5000) (q : Fin 40) :
    broadcastTo S5000x40 (shapeCast S5000x1 w shapeCasts_S5000_S5000x1) broadcasts_S5000x1_S5000x40 (ix2 p q)
      = w (ix1 p) :=
  (ValueLayout.broadcastTo_a1_ab_apply (by decide) _ broadcasts_S5000x1_S5000x40 p q).trans
    (ValueLayout.shapeCast_a_a1_apply w shapeCasts_S5000_S5000x1 p 0)

/-- The maximum over the minor axis of a [5000, 40] block, at row p: the fold of max over the row's entries from the
    accumulator's value. -/
theorem rowMaxRed_apply (v : FVec Ideal S5000x40 .f32) (hφ : FKind.Formats FTy.f32)
    (hacc : (0xFF800000#32 : BitVec FTy.f32.bits) = FKind.maximumf.neutral .f32 hφ) (p : Fin 5000) :
    multiReduction (F := Ideal) .maximumf [1] S5000 v 0xFF800000#32 reduces_S5000x40_S5000 hφ hacc (ix1 p)
      = Cert.Spec.rowMax (Ideal.ofBits .f32 0xFF800000#32) (fun k : Fin 40 => v (ix2 p k)) := by
  refine (Ideal.multiReduction_maximumf_single v _ reduces_S5000x40_S5000 hφ hacc (ix1 p)).trans ?_
  show (Finset.univ : Finset (Fin 40)).fold max (Ideal.ofBits .f32 0xFF800000#32)
      (v ∘ reduces_S5000x40_S5000.lift (ix1 p)) = _
  unfold Cert.Spec.rowMax
  congr 1
  funext k
  exact congrArg v (lift_minor reduces_S5000x40_S5000 p k)

/-- The sum over the minor axis of a [5000, 40] block, at row p: the sum of the row's entries. -/
theorem rowSumRed_apply (v : FVec Ideal S5000x40 .f32) (hφ : FKind.Formats FTy.f32)
    (hacc : (0x00000000#32 : BitVec FTy.f32.bits) = FKind.add.neutral .f32 hφ) (p : Fin 5000) :
    multiReduction (F := Ideal) .add [1] S5000 v 0x00000000#32 reduces_S5000x40_S5000 hφ hacc (ix1 p)
      = ∑ k : Fin 40, v (ix2 p k) := by
  refine (Ideal.multiReduction_add_single v _ reduces_S5000x40_S5000 hφ hacc (ix1 p)).trans ?_
  show ∑ k : Fin 40, v (reduces_S5000x40_S5000.lift (ix1 p) k) = _
  exact Finset.sum_congr rfl fun k _ => congrArg v (lift_minor reduces_S5000x40_S5000 p k)

/-- A [5000, 40] block less a block whose row p is the constant M, less the logarithm of the row sums of the
    exponentials of that difference (kept as a column and spread over the lanes), read at (p, q). -/
theorem subLogSumExp_apply (v mx : FVec Ideal S5000x40 .f32) (M : EReal) (hφ : FKind.Formats FTy.f32)
    (hadd : (0x00000000#32 : BitVec FTy.f32.bits) = FKind.add.neutral .f32 hφ) (p : Fin 5000) (q : Fin 40)
    (hM : ∀ k : Fin 40, mx (ix2 p k) = M) :
    subf (subf v mx)
      (broadcastTo S5000x40 (log (shapeCast S5000x1
        (multiReduction (F := Ideal) .add [1] S5000 (exp (subf v mx)) 0x00000000#32 reduces_S5000x40_S5000 hφ hadd)
        shapeCasts_S5000_S5000x1)) broadcasts_S5000x1_S5000x40)
      (ix2 p q)
      = (v (ix2 p q) - M) - Ideal.log (∑ k : Fin 40, Ideal.exp (v (ix2 p k) - M)) := by
  have hL : broadcastTo S5000x40 (log (shapeCast S5000x1
        (multiReduction (F := Ideal) .add [1] S5000 (exp (subf v mx)) 0x00000000#32 reduces_S5000x40_S5000 hφ hadd)
        shapeCasts_S5000_S5000x1)) broadcasts_S5000x1_S5000x40 (ix2 p q)
      = Ideal.log (∑ k : Fin 40, Ideal.exp (v (ix2 p k) - M)) := by
    refine (ValueLayout.broadcastTo_a1_ab_apply (by decide) _ broadcasts_S5000x1_S5000x40 p q).trans ?_
    show Ideal.log (shapeCast S5000x1
        (multiReduction (F := Ideal) .add [1] S5000 (exp (subf v mx)) 0x00000000#32 reduces_S5000x40_S5000 hφ hadd)
        shapeCasts_S5000_S5000x1 (ix2 p (0 : Fin 1))) = _
    refine congrArg Ideal.log ?_
    refine (ValueLayout.shapeCast_a_a1_apply _ shapeCasts_S5000_S5000x1 p 0).trans ?_
    refine (rowSumRed_apply _ hφ hadd p).trans ?_
    refine Finset.sum_congr rfl fun k _ => ?_
    show Ideal.exp (v (ix2 p k) - mx (ix2 p k)) = _
    rw [hM k]
  show (v (ix2 p q) - mx (ix2 p q)) - _ = _
  rw [hM q, hL]

/-- The log-softmax of the rows of a [5000, 40] block as the kernel spells it — the row maximum and the logarithm of
    the row's sum of exponentials each kept as a column and spread over the lanes — read at (p, q). -/
theorem lsmBody_apply (v : FVec Ideal S5000x40 .f32) (hφ : FKind.Formats FTy.f32)
    (hmax : (0xFF800000#32 : BitVec FTy.f32.bits) = FKind.maximumf.neutral .f32 hφ)
    (hadd : (0x00000000#32 : BitVec FTy.f32.bits) = FKind.add.neutral .f32 hφ) (p : Fin 5000) (q : Fin 40) :
    subf
      (subf v (broadcastTo S5000x40 (shapeCast S5000x1
        (multiReduction (F := Ideal) .maximumf [1] S5000 v 0xFF800000#32 reduces_S5000x40_S5000 hφ hmax)
        shapeCasts_S5000_S5000x1) broadcasts_S5000x1_S5000x40))
      (broadcastTo S5000x40 (log (shapeCast S5000x1
        (multiReduction (F := Ideal) .add [1] S5000
          (exp (subf v (broadcastTo S5000x40 (shapeCast S5000x1
            (multiReduction (F := Ideal) .maximumf [1] S5000 v 0xFF800000#32 reduces_S5000x40_S5000 hφ hmax)
            shapeCasts_S5000_S5000x1) broadcasts_S5000x1_S5000x40)))
          0x00000000#32 reduces_S5000x40_S5000 hφ hadd)
        shapeCasts_S5000_S5000x1)) broadcasts_S5000x1_S5000x40)
      (ix2 p q)
      = Cert.Spec.lsmRow (Ideal.ofBits .f32 0xFF800000#32) (fun k : Fin 40 => v (ix2 p k)) q := by
  exact subLogSumExp_apply v _ _ hφ hadd p q fun k => (keepSpread_apply _ p k).trans (rowMaxRed_apply v hφ hmax p)

/-- The bias-and-log-softmax body's stored value at (p, q): the log-softmax, at q, of row p of the block with the bias added. -/
theorem pay3_apply (b : Vec Ideal S40 .f32) (x : Vec Ideal S5000x40 .f32) (p : Fin 5000) (q : Fin 40) :
    k3_pay1 (F := Ideal) b x (ix2 p q)
      = Cert.Spec.lsmRow (Ideal.ofBits .f32 0xFF800000#32) (fun k : Fin 40 => x (ix2 p k) + b (ix1 k)) q := by
  unfold k3_pay1
  refine (lsmBody_apply _ _ _ _ p q).trans ?_
  refine congrArg (fun z => Cert.Spec.lsmRow (Ideal.ofBits .f32 0xFF800000#32) z q) (funext fun k => ?_)
  show shapeCast S5000x40 x shapeCasts_S5000x40_S5000x40 (ix2 p k)
      + broadcastTo S5000x40 (shapeCast S1x40 b shapeCasts_S40_S1x40) broadcasts_S1x40_S5000x40 (ix2 p k) = _
  rw [shapeCast_self, Cert.Lib.RowSpread.spread_asRow_apply]

end Cert.KernelIdeal.Regions

end
-- ==== Proof.Region1.lean ====
/-
  The second launch: the first layer's bias and relu.

  The launch cuts the rows of its input into ten blocks of 5000 rows and keeps the bias vector whole; at block `t` the
  body adds to every row of its 5000 × 128 block the bias vector and takes the maximum with zero and stores the 5000 × 128 result as rows 5000 t … 5000 t + 4999 of the output.
  An entry of the result reads its own entry of the input and its column's bias, so each stored block is that block of one function of the whole input and the bias, and the
  ten blocks cover the output: after the launch the output array is that function of the two arrays as the launch
  found them.
-/
import proofs.«119146_j33277406609480_1_alg».proof.Proof.Gen.KernelIdeal.Frame
import proofs.«119146_j33277406609480_1_alg».proof.Proof.PayEpilogue
import proofs.«119146_j33277406609480_1_alg».proof.Proof.Spec
import Idealize.ShloMosaic.Lib.Pipeline.Value
import Idealize.ShloMosaic.Lib.ValueIdx

set_option maxRecDepth 16384

open scoped BigOperators

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat Cfg Window)
open Idealize.SL.Sem

variable (V : (c : Dev nD) → (b : Ref sig .tc) → Buf (Elt Ideal) ((c : Thread nD τ).loc b))

theorem hzero1 : (![0, 0] : Fin 2 → Nat) = fun _ => 0 := funext fun a => by fin_cases a <;> rfl
theorem hzeroB1 : (![0] : Fin 1 → Nat) = fun _ => 0 := funext fun a => by fin_cases a <;> rfl

/-- Where the launch's index maps send point `t`: the input and output blocks to block row `t`, the bias to its one block. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point `t` writes back is block `t` of the bias-and-relu of the two arrays as the launch found them. -/
theorem flushed1 (c : Dev nD) (t : Fin cfg1.N) :
    (dat1 V c).flushed 2 t = ((cfg1.win 2).blk t).view.read (Elt Ideal)
      (Cert.Spec.biasRelu (R := 50000) (N := 128) (0 : EReal) (V c main_v43) (V c main_arg3)) := by
  show (cfg1.win 2).cut (grid1.coords t) ((dat1 V c).after 2 t) = _
  rw [after1_2]
  unfold out1_2
  rw [View.canon_unit_zero hzero1]
  simp only [View.ld_unit_zero (S := S5000x128) hzero1, View.ld_unit_zero (S := S128) hzeroB1]
  obtain ⟨e0, e1, e2, e4, e5⟩ := idx_facts1 t
  have ht : t.val < 10 := by have h : t.val < grid1.N := t.isLt; rw [N_1] at h; exact h
  funext j
  obtain ⟨p, q, rfl⟩ : ∃ (p : Fin 5000) (q : Fin 128), j = ix2 p q := ⟨j 0, j 1, eq_ix2 j⟩
  have hp : p.val < 5000 := p.isLt
  have hemb : ((cfg1.win 2).blk t).view.emb (ix2 p q) = ix2 (⟨t.val * 5000 + p.val, by omega⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  have h0 : ∀ k : Fin 128, iblk1 V c 0 t (ix2 p k)
      = V c main_v43 (ix2 (⟨t.val * 5000 + p.val, by omega⟩ : Fin 50000) k) := fun k => by
    show V c main_v43 (((cfg1.win 0).blk t).view.emb (ix2 p k)) = _
    refine congrArg (V c main_v43) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ∀ k : Fin 128, iblk1 V c 1 t (ix1 k) = V c main_arg3 (ix1 k) := fun k => by
    show V c main_arg3 (((cfg1.win 1).blk t).view.emb (ix1 k)) = _
    refine congrArg (V c main_arg3) ?_
    funext a; apply Fin.ext
    match a with
    | ⟨0, _⟩ => show win1_1.index t (0 : Fin 1) * 128 + 1 * k.val = k.val; omega
  show k1_pay1 (F := Ideal) (iblk1 V c 1 t) (iblk1 V c 0 t) (ix2 p q)
    = Cert.Spec.biasRelu (R := 50000) (N := 128) (0 : EReal) (V c main_v43) (V c main_arg3) (((cfg1.win 2).blk t).view.emb (ix2 p q))
  rw [hemb, Cert.Spec.biasRelu_apply]
  refine (pay1_apply _ _ p q).trans ?_
  exact congrArg₂ (fun a b : EReal => max (a + b) 0) (h0 q) (h1 q)

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v44).slice (win1_2.rect t)).set ↔ _
  rw [View.set_slice_whole, Rect.mem_set_unit]
  exact Iff.rfl

/-- Every row of the output lies in the block of the point that is its row number divided by 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 5000, by show _ < grid1.N; rw [N_1]; omega⟩
  obtain ⟨-, -, -, e4, e5⟩ := idx_facts1 t
  have e4' : win1_2.index t (0 : Fin 2) = (i 0).val / 5000 := e4
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the launch its output array is the bias-and-relu of the input and bias arrays as the launch found them. -/
theorem final1 (c : Dev nD) :
    (dat1 V c).arrAt 2 cfg1.N = Cert.Spec.biasRelu (R := 50000) (N := 128) (0 : EReal) (V c main_v43) (V c main_arg3) :=
  (dat1 V c).arrAt_eq_of_cover 2 _ (fun t _ => flushed1 V c t) cover1

end Cert.KernelIdeal.Regions

end
-- ==== Proof.Region2.lean ====
/-
  The third launch: the second layer's projection.

  The launch cuts the rows of the hidden activations into ten blocks of 5000 rows; at block `t` the body multiplies
  rows 5000 t … 5000 t + 4999 of the activations by the whole weight matrix (the operands' narrowing to bf16 is the
  identity on the extended reals) into a zero accumulator and stores the 5000 × 40 result as rows
  5000 t … 5000 t + 4999 of the output. An entry of a matrix product reads one row of its left operand, so each
  stored block is that block of the whole product, and the ten blocks cover the output: after the launch the output
  array is the product of the two arrays as the launch found them.
-/
import proofs.«119146_j33277406609480_1_alg».proof.Proof.Gen.KernelIdeal.Frame
import proofs.«119146_j33277406609480_1_alg».proof.Proof.LibRowBlockProduct
import Idealize.ShloMosaic.Lib.Pipeline.Value
import Idealize.ShloMosaic.Lib.ValueIdx

set_option maxRecDepth 16384

open scoped BigOperators

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat Cfg Window)
open Idealize.SL.Sem

variable (V : (c : Dev nD) → (b : Ref sig .tc) → Buf (Elt Ideal) ((c : Thread nD τ).loc b))

theorem hzero2 : (![0, 0] : Fin 2 → Nat) = fun _ => 0 := funext fun a => by fin_cases a <;> rfl

/-- The second projection's dimension numbers are the plain ones: rows by columns, one contracted axis. -/
theorem plain2 : PlainDot.IsPlain (R := 5000) (K := 128) (N := 40) dot_S5000x128_S128x40_S5000x40_1_0_0_1_n_n :=
  ⟨rfl, rfl, rfl, rfl, rfl, rfl⟩

/-- The body's stored value at (p, q), when its left block holds the rows from `o` on of `A` and its right block is `B`:
    the product of `A` and `B` at row `o + p`. -/
theorem pay2_apply (A : S50000x128.Idx → EReal) (B : S128x40.Idx → EReal)
    (x0 : Vec Ideal S5000x128 .f32) (x1 : Vec Ideal S128x40 .f32) (o : ℕ) (ho : o + 5000 ≤ 50000)
    (hx0 : ∀ (p : Fin 5000) (k : Fin 128), x0 (ix2 p k) = A (ix2 ⟨o + p.val, by have := p.isLt; omega⟩ k))
    (hx1 : ∀ (k : Fin 128) (q : Fin 40), x1 (ix2 k q) = B (ix2 k q)) (p : Fin 5000) (q : Fin 40) :
    k2_pay1 (F := Ideal) x0 x1 (ix2 p q)
      = RowBlockProduct.prod (R := 50000) (K := 128) (N := 40) A B (ix2 ⟨o + p.val, by have := p.isLt; omega⟩ q) := by
  unfold k2_pay1
  refine RowBlockProduct.matmul_rows (R := 50000) plain2 none A B _ _ o ho (fun p' k => ?_) hx1 p q
  first
    | exact hx0 p' k
    | (rw [shapeCast_self]; exact hx0 p' k)

/-- Where the launch's index maps send point `t`: the activation and output blocks to block row `t`, the weights to their
    one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the launch found them. -/
theorem flushed2 (c : Dev nD) (t : Fin cfg2.N) :
    (dat2 V c).flushed 2 t = ((cfg2.win 2).blk t).view.read (Elt Ideal)
      (RowBlockProduct.prod (R := 50000) (K := 128) (N := 40) (V c main_v44) (V c main_arg4)) := by
  show (cfg2.win 2).cut (grid2.coords t) ((dat2 V c).after 2 t) = _
  rw [after2_2]
  unfold out2_2
  rw [View.canon_unit_zero hzero2]
  simp only [View.ld_unit_zero (S := S5000x128) hzero2, View.ld_unit_zero (S := S128x40) hzero2]
  obtain ⟨e0, e1, e2, e3, e4, e5⟩ := idx_facts2 t
  have ht : t.val < 10 := by have h : t.val < grid2.N := t.isLt; rw [N_2] at h; exact h
  funext j
  obtain ⟨p, q, rfl⟩ : ∃ (p : Fin 5000) (q : Fin 40), j = ix2 p q := ⟨j 0, j 1, eq_ix2 j⟩
  have hp : p.val < 5000 := p.isLt
  have hemb : ((cfg2.win 2).blk t).view.emb (ix2 p q) = ix2 (⟨t.val * 5000 + p.val, by omega⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 40 + 1 * q.val = q.val; omega
  show k2_pay1 (F := Ideal) (iblk2 V c 0 t) (iblk2 V c 1 t) (ix2 p q)
    = RowBlockProduct.prod (R := 50000) (K := 128) (N := 40) (V c main_v44) (V c main_arg4) (((cfg2.win 2).blk t).view.emb (ix2 p q))
  rw [hemb]
  refine pay2_apply (V c main_v44) (V c main_arg4) _ _ (t.val * 5000) (by omega) ?_ ?_ p q
  · intro p' k
    have hp' : p'.val < 5000 := p'.isLt
    show V c main_v44 (((cfg2.win 0).blk t).view.emb (ix2 p' k)) = _
    refine congrArg (V c main_v44) ?_
    funext a; apply Fin.ext
    match a with
    | ⟨0, _⟩ => show win2_0.index t (0 : Fin 2) * 5000 + 1 * p'.val = t.val * 5000 + p'.val; omega
    | ⟨1, _⟩ => show win2_0.index t (1 : Fin 2) * 128 + 1 * k.val = k.val; omega
  · intro k q'
    show V c main_arg4 (((cfg2.win 1).blk t).view.emb (ix2 k q')) = _
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 40 + 1 * q'.val = q'.val; omega

/-- An index of the output array is in point `t`'s block iff each coordinate is in the block's range on its axis. -/
theorem mem_blk2 (t : Fin cfg2.N) (i : S50000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v45).slice (win2_2.rect t)).set ↔ _
  rw [View.set_slice_whole, Rect.mem_set_unit]
  exact Iff.rfl

/-- Every row of the output lies in the block of the point that is its row number divided by 5000. -/
theorem cover2 (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  let t : Fin cfg2.N := ⟨(i 0).val / 5000, by show _ < grid2.N; rw [N_2]; omega⟩
  obtain ⟨-, -, -, -, e4, e5⟩ := idx_facts2 t
  have e4' : win2_2.index t (0 : Fin 2) = (i 0).val / 5000 := e4
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- After the third launch its output array is the product of the activation and weight arrays as the launch found them. -/
theorem final2 (c : Dev nD) :
    (dat2 V c).arrAt 2 cfg2.N
      = RowBlockProduct.prod (R := 50000) (K := 128) (N := 40) (V c main_v44) (V c main_arg4) :=
  (dat2 V c).arrAt_eq_of_cover 2 _ (fun t _ => flushed2 V c t) cover2

end Cert.KernelIdeal.Regions

end
-- ==== Proof.Region3.lean ====
/-
  The fourth launch: the second layer's bias and log-softmax.

  The launch cuts the rows of its input into ten blocks of 5000 rows and keeps the bias vector whole; at block `t` the
  body adds to every row of its 5000 × 40 block the bias vector and takes the log-softmax of each row and stores the 5000 × 40 result as rows 5000 t … 5000 t + 4999 of the output.
  An entry of the result reads its own row of the input (whole: the block holds all 40 columns) and the bias, so each stored block is that block of one function of the whole input and the bias, and the
  ten blocks cover the output: after the launch the output array is that function of the two arrays as the launch
  found them.
-/
import proofs.«119146_j33277406609480_1_alg».proof.Proof.Gen.KernelIdeal.Frame
import proofs.«119146_j33277406609480_1_alg».proof.Proof.PayEpilogue
import proofs.«119146_j33277406609480_1_alg».proof.Proof.Spec
import Idealize.ShloMosaic.Lib.Pipeline.Value
import Idealize.ShloMosaic.Lib.ValueIdx

set_option maxRecDepth 16384

open scoped BigOperators

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat Cfg Window)
open Idealize.SL.Sem

variable (V : (c : Dev nD) → (b : Ref sig .tc) → Buf (Elt Ideal) ((c : Thread nD τ).loc b))

theorem hzero3 : (![0, 0] : Fin 2 → Nat) = fun _ => 0 := funext fun a => by fin_cases a <;> rfl
theorem hzeroB3 : (![0] : Fin 1 → Nat) = fun _ => 0 := funext fun a => by fin_cases a <;> rfl

/-- Where the launch's index maps send point `t`: the input and output blocks to block row `t`, the bias to its one block. -/
theorem idx_facts3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point `t` writes back is block `t` of the bias-and-log-softmax of the two arrays as the launch found them. -/
theorem flushed3 (c : Dev nD) (t : Fin cfg3.N) :
    (dat3 V c).flushed 2 t = ((cfg3.win 2).blk t).view.read (Elt Ideal)
      (Cert.Spec.biasLsm (R := 50000) (N := 40) (Ideal.ofBits .f32 0xFF800000#32) (V c main_v84) (V c main_arg5)) := by
  show (cfg3.win 2).cut (grid3.coords t) ((dat3 V c).after 2 t) = _
  rw [after3_2]
  unfold out3_2
  rw [View.canon_unit_zero hzero3]
  simp only [View.ld_unit_zero (S := S5000x40) hzero3, View.ld_unit_zero (S := S40) hzeroB3]
  obtain ⟨e0, e1, e2, e4, e5⟩ := idx_facts3 t
  have ht : t.val < 10 := by have h : t.val < grid3.N := t.isLt; rw [N_3] at h; exact h
  funext j
  obtain ⟨p, q, rfl⟩ : ∃ (p : Fin 5000) (q : Fin 40), j = ix2 p q := ⟨j 0, j 1, eq_ix2 j⟩
  have hp : p.val < 5000 := p.isLt
  have hemb : ((cfg3.win 2).blk t).view.emb (ix2 p q) = ix2 (⟨t.val * 5000 + p.val, by omega⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 40 + 1 * q.val = q.val; omega
  have h0 : ∀ k : Fin 40, iblk3 V c 0 t (ix2 p k)
      = V c main_v84 (ix2 (⟨t.val * 5000 + p.val, by omega⟩ : Fin 50000) k) := fun k => by
    show V c main_v84 (((cfg3.win 0).blk t).view.emb (ix2 p k)) = _
    refine congrArg (V c main_v84) ?_
    funext a; apply Fin.ext
    match a with
    | ⟨0, _⟩ => show win3_0.index t (0 : Fin 2) * 5000 + 1 * p.val = t.val * 5000 + p.val; omega
    | ⟨1, _⟩ => show win3_0.index t (1 : Fin 2) * 40 + 1 * k.val = k.val; omega
  have h1 : ∀ k : Fin 40, iblk3 V c 1 t (ix1 k) = V c main_arg5 (ix1 k) := fun k => by
    show V c main_arg5 (((cfg3.win 1).blk t).view.emb (ix1 k)) = _
    refine congrArg (V c main_arg5) ?_
    funext a; apply Fin.ext
    match a with
    | ⟨0, _⟩ => show win3_1.index t (0 : Fin 1) * 40 + 1 * k.val = k.val; omega
  show k3_pay1 (F := Ideal) (iblk3 V c 1 t) (iblk3 V c 0 t) (ix2 p q)
    = Cert.Spec.biasLsm (R := 50000) (N := 40) (Ideal.ofBits .f32 0xFF800000#32) (V c main_v84) (V c main_arg5) (((cfg3.win 2).blk t).view.emb (ix2 p q))
  rw [hemb, Cert.Spec.biasLsm_apply]
  refine (pay3_apply _ _ p q).trans ?_
  exact congrArg (fun z : Fin 40 → EReal => Cert.Spec.lsmRow (Ideal.ofBits .f32 0xFF800000#32) z q)
    (funext fun k => congrArg₂ (fun a b : EReal => a + b) (h0 k) (h1 k))

/-- An index of the output array is in point `t`'s block iff each coordinate is in the block's range on its axis. -/
theorem mem_blk3 (t : Fin cfg3.N) (i : S50000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v85).slice (win3_2.rect t)).set ↔ _
  rw [View.set_slice_whole, Rect.mem_set_unit]
  exact Iff.rfl

/-- Every row of the output lies in the block of the point that is its row number divided by 5000. -/
theorem cover3 (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  let t : Fin cfg3.N := ⟨(i 0).val / 5000, by show _ < grid3.N; rw [N_3]; omega⟩
  obtain ⟨-, -, -, e4, e5⟩ := idx_facts3 t
  have e4' : win3_2.index t (0 : Fin 2) = (i 0).val / 5000 := e4
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 40 ≤ (i 1).val ∧ (i 1).val < win3_2.index t (1 : Fin 2) * 40 + 40; omega

/-- After the launch its output array is the bias-and-log-softmax of the input and bias arrays as the launch found them. -/
theorem final3 (c : Dev nD) :
    (dat3 V c).arrAt 2 cfg3.N = Cert.Spec.biasLsm (R := 50000) (N := 40) (Ideal.ofBits .f32 0xFF800000#32) (V c main_v84) (V c main_arg5) :=
  (dat3 V c).arrAt_eq_of_cover 2 _ (fun t _ => flushed3 V c t) cover3

end Cert.KernelIdeal.Regions

end
-- ==== Proof.KernelChain.lean ====
/-
  What the kernel program's host operations compute between its launches, against the reference program's stages.

  Between the first launch (the first layer's feature product) and the second, and again between the third launch
  (the second layer's feature product) and the fourth, the kernel program runs the graph aggregation as host
  operations: the edge list's two rows with one self-loop per node appended; the degree of each node as a
  scatter-add of ones at the targets; its inverse square root where the degree is positive and zero elsewhere;
  that factor gathered at the sources and at the targets and the two multiplied; the product's rows gathered at the
  sources, scaled by the edge factor, and scatter-added at the targets into zeros. The reference program has the
  same operations on the same values, so each buffer of the kernel program, read where the next launch takes it,
  is the reference's stage function of the arguments, given that the launch before it left the reference's product.

  Also here: the buffers that no launch and no host operation in between writes (the edge list's two rows once
  formed, and the bias and weight arguments of the later launches) are read back to where they were written.
-/
import proofs.«119146_j33277406609480_1_alg».proof.Proof.Gen.KernelIdeal.Frame
import proofs.«119146_j33277406609480_1_alg».proof.Proof.RefReadPatched
import Idealize.ShloMosaic.Lib.StableHlo.Run

noncomputable section

namespace Cert.KernelIdeal.Chain

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

set_option quotPrecheck false in
local notation "x0" => m ((c : Thread nD τ).loc main_arg0)
set_option quotPrecheck false in
local notation "x1" => m ((c : Thread nD τ).loc main_arg1)
set_option quotPrecheck false in
local notation "x2" => m ((c : Thread nD τ).loc main_arg2)
set_option quotPrecheck false in
local notation "x3" => m ((c : Thread nD τ).loc main_arg3)
set_option quotPrecheck false in
local notation "x4" => m ((c : Thread nD τ).loc main_arg4)
set_option quotPrecheck false in
local notation "x5" => m ((c : Thread nD τ).loc main_arg5)

/-- A stretch of host operations leaves a buffer none of them writes as it was. -/
local macro "host_carry" : tactic => `(tactic|
  (refine StableHlo.after_of_forall_not_mem _ _ (List.forall_iff_forall_mem.mp ?_)
   simp only [hostOps0, hostOps1, hostOps1_1, hostOps1_2, hostOps3, hostOps3_1, hostOps3_2,
     List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## Buffers carried unchanged through the fold -/

/-- An argument no host operation writes, read before the first launch's exit and after: region 0 does not hold it. -/
theorem W5_of_W0 (b : Ref sig .tc) (h0 : ∀ w, Pipeline.arrRef spec0 w ≠ b)
    (k0 : StableHlo.after hostOps0 (W0 m ρ c) (Proc.devRef .tc b) = W0 m ρ c (Proc.devRef .tc b))
    (k1 : StableHlo.after hostOps1 (W2 m ρ c) (Proc.devRef .tc b) = W2 m ρ c (Proc.devRef .tc b))
    (k2 : StableHlo.after hostOps1_1 (W3 m ρ c) (Proc.devRef .tc b) = W3 m ρ c (Proc.devRef .tc b))
    (k3 : StableHlo.after hostOps1_2 (W4 m ρ c) (Proc.devRef .tc b) = W4 m ρ c (Proc.devRef .tc b)) :
    W5 m ρ c (Proc.devRef .tc b) = W0 m ρ c (Proc.devRef .tc b) :=
  calc W5 m ρ c (Proc.devRef .tc b)
    _ = W4 m ρ c (Proc.devRef .tc b) := k3
    _ = W3 m ρ c (Proc.devRef .tc b) := k2
    _ = W2 m ρ c (Proc.devRef .tc b) := k1
    _ = W1 m ρ c (Proc.devRef .tc b) := W2_of_ne m ρ c b h0
    _ = W0 m ρ c (Proc.devRef .tc b) := k0

theorem W5_arg3 : W5 m ρ c (Proc.devRef .tc main_arg3) = x3 :=
  W5_of_W0 m ρ c main_arg3 (by decide) (by host_carry) (by host_carry) (by host_carry) (by host_carry)

theorem W5_arg4 : W5 m ρ c (Proc.devRef .tc main_arg4) = x4 :=
  W5_of_W0 m ρ c main_arg4 (by decide) (by host_carry) (by host_carry) (by host_carry) (by host_carry)

theorem W6_arg4 : W6 m ρ c (Proc.devRef .tc main_arg4) = x4 :=
  (W6_of_ne m ρ c main_arg4 (by decide)).trans (W5_arg4 m ρ c)

theorem W5_arg5 : W5 m ρ c (Proc.devRef .tc main_arg5) = x5 :=
  W5_of_W0 m ρ c main_arg5 (by decide) (by host_carry) (by host_carry) (by host_carry) (by host_carry)

theorem W7_arg5 : W7 m ρ c (Proc.devRef .tc main_arg5) = x5 :=
  (W7_of_ne m ρ c main_arg5 (by decide)).trans ((W6_of_ne m ρ c main_arg5 (by decide)).trans (W5_arg5 m ρ c))

theorem W10_arg5 : W10 m ρ c (Proc.devRef .tc main_arg5) = x5 :=
  calc W10 m ρ c (Proc.devRef .tc main_arg5)
    _ = W9 m ρ c (Proc.devRef .tc main_arg5) := by host_carry
    _ = W8 m ρ c (Proc.devRef .tc main_arg5) := by host_carry
    _ = W7 m ρ c (Proc.devRef .tc main_arg5) := by host_carry
    _ = x5 := W7_arg5 m ρ c

/-- The two index vectors (the rows of the edge list) are written once, before the first launch, and by nothing after. -/
theorem W2_v1_carry : W2 m ρ c (Proc.devRef .tc main_v1) = W1 m ρ c (Proc.devRef .tc main_v1) :=
  W2_of_ne m ρ c main_v1 (by decide)
theorem W2_v3_carry : W2 m ρ c (Proc.devRef .tc main_v3) = W1 m ρ c (Proc.devRef .tc main_v3) :=
  W2_of_ne m ρ c main_v3 (by decide)

theorem W7_v1_carry : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := by host_carry
    _ = W3 m ρ c (Proc.devRef .tc main_v1) := by host_carry
    _ = W2 m ρ c (Proc.devRef .tc main_v1) := by host_carry
    _ = W1 m ρ c (Proc.devRef .tc main_v1) := W2_v1_carry m ρ c

theorem W7_v3_carry : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_carry
    _ = W3 m ρ c (Proc.devRef .tc main_v3) := by host_carry
    _ = W2 m ρ c (Proc.devRef .tc main_v3) := by host_carry
    _ = W1 m ρ c (Proc.devRef .tc main_v3) := W2_v3_carry m ρ c

/-! ## The edge list's two rows, before the first launch -/

theorem W1_v1 : W1 m ρ c (Proc.devRef .tc main_v1) = Cert.ReferenceIdeal.Read.val_main_v1 (F := F) x1 := by
  show StableHlo.after hostOps0 (W0 m ρ c) (Proc.devRef .tc main_v1) = _
  dsimp only [hostOps0]
  after_results
  rfl

theorem W1_v3 : W1 m ρ c (Proc.devRef .tc main_v3) = Cert.ReferenceIdeal.Read.val_main_v3 (F := F) x1 := by
  show StableHlo.after hostOps0 (W0 m ρ c) (Proc.devRef .tc main_v3) = _
  dsimp only [hostOps0]
  after_results
  rfl

/-! ## The host operations between the first launch and the second, stretch by stretch, from any contents `V`

Each stretch is read at the buffers the next one takes, from hypotheses on the buffers it takes itself; the
reference's stage functions are the same operations on the same leaves. -/

section Stretches
variable (V : Valuation τ sig (Elt F))
variable (a0 : (⟨S50000x256, .f32⟩ : BufTy).Contents (Elt F)) (a1 : (⟨S2x1600000, .i32⟩ : BufTy).Contents (Elt F))
  (a2 : (⟨S256x128, .f32⟩ : BufTy).Contents (Elt F))

/-- Sources with self-loops appended. -/
theorem s1_v6 (h1 : V (Proc.devRef .tc main_v1) = Cert.ReferenceIdeal.Read.val_main_v1 (F := F) a1) :
    StableHlo.after hostOps1 V (Proc.devRef .tc main_v6) = Cert.ReferenceIdeal.Read.val_main_v6 (F := F) a1 := by
  dsimp only [hostOps1]
  after_results
  rw [h1]
  rfl

/-- Targets with self-loops appended. -/
theorem s1_v7 (h3 : V (Proc.devRef .tc main_v3) = Cert.ReferenceIdeal.Read.val_main_v3 (F := F) a1) :
    StableHlo.after hostOps1 V (Proc.devRef .tc main_v7) = Cert.ReferenceIdeal.Read.val_main_v7 (F := F) a1 := by
  dsimp only [hostOps1]
  after_results
  rw [h3]
  rfl

/-- Is the degree positive. -/
theorem s1_v13 (h3 : V (Proc.devRef .tc main_v3) = Cert.ReferenceIdeal.Read.val_main_v3 (F := F) a1) :
    StableHlo.after hostOps1 V (Proc.devRef .tc main_v13) = Cert.ReferenceIdeal.Read.val_main_v13 (F := F) a1 := by
  dsimp only [hostOps1]
  after_results
  rw [h3]
  rfl

/-- The degree's inverse square root. -/
theorem s1_v14 (h3 : V (Proc.devRef .tc main_v3) = Cert.ReferenceIdeal.Read.val_main_v3 (F := F) a1) :
    StableHlo.after hostOps1 V (Proc.devRef .tc main_v14) = Cert.ReferenceIdeal.Read.val_main_v14 (F := F) a1 := by
  dsimp only [hostOps1]
  after_results
  rw [h3]
  rfl

theorem s1_cst_2 :
    StableHlo.after hostOps1 V (Proc.devRef .tc main_cst_2) = Cert.ReferenceIdeal.Read.val_main_cst_2 (F := F) := by
  dsimp only [hostOps1]
  after_results
  rfl

/-- The normalising factor per node: the inverse square root where the degree is positive, zero elsewhere. -/
theorem s2_v15 (h13 : V (Proc.devRef .tc main_v13) = Cert.ReferenceIdeal.Read.val_main_v13 (F := F) a1)
    (h14 : V (Proc.devRef .tc main_v14) = Cert.ReferenceIdeal.Read.val_main_v14 (F := F) a1)
    (hc : V (Proc.devRef .tc main_cst_2) = Cert.ReferenceIdeal.Read.val_main_cst_2 (F := F)) :
    StableHlo.after hostOps1_1 V (Proc.devRef .tc main_v15) = Cert.ReferenceIdeal.Read.val_main_v15 (F := F) a1 := by
  dsimp only [hostOps1_1]
  after_results
  simp only [StableHlo.TRef.ofBuf, StableHlo.TRef.toBuf, cast_eq]
  rw [h13, h14, hc]
  rfl

/-- The aggregation: rows gathered at the sources, scaled by the two factors' product, scatter-added at the targets. -/
theorem s3_v43 (h6 : V (Proc.devRef .tc main_v6) = Cert.ReferenceIdeal.Read.val_main_v6 (F := F) a1)
    (h7 : V (Proc.devRef .tc main_v7) = Cert.ReferenceIdeal.Read.val_main_v7 (F := F) a1)
    (h15 : V (Proc.devRef .tc main_v15) = Cert.ReferenceIdeal.Read.val_main_v15 (F := F) a1)
    (h4 : V (Proc.devRef .tc main_v4) = Cert.ReferenceIdeal.Read.val_main_v4 (F := F) a0 a2) :
    StableHlo.after hostOps1_2 V (Proc.devRef .tc main_v43) = Cert.ReferenceIdeal.Read.val_main_v43 (F := F) a0 a1 a2 := by
  dsimp only [hostOps1_2]
  after_results_simp
  rw [h6, h7, h15, h4]
  rfl

end Stretches

/-! ## The host operations between the third launch and the fourth: the same text on the second layer's rows -/

section Stretches2
variable (V : Valuation τ sig (Elt F))
variable (a0 : (⟨S50000x256, .f32⟩ : BufTy).Contents (Elt F)) (a1 : (⟨S2x1600000, .i32⟩ : BufTy).Contents (Elt F))
  (a2 : (⟨S256x128, .f32⟩ : BufTy).Contents (Elt F)) (a3 : (⟨S128, .f32⟩ : BufTy).Contents (Elt F))
  (a4 : (⟨S128x40, .f32⟩ : BufTy).Contents (Elt F))

/-- Sources with self-loops appended. -/
theorem t1_v47 (h1 : V (Proc.devRef .tc main_v1) = Cert.ReferenceIdeal.Read.val_main_v1 (F := F) a1) :
    StableHlo.after hostOps3 V (Proc.devRef .tc main_v47) = Cert.ReferenceIdeal.Read.val_main_v50 (F := F) a1 := by
  dsimp only [hostOps3]
  after_results
  rw [h1]
  rfl

/-- Targets with self-loops appended. -/
theorem t1_v48 (h3 : V (Proc.devRef .tc main_v3) = Cert.ReferenceIdeal.Read.val_main_v3 (F := F) a1) :
    StableHlo.after hostOps3 V (Proc.devRef .tc main_v48) = Cert.ReferenceIdeal.Read.val_main_v51 (F := F) a1 := by
  dsimp only [hostOps3]
  after_results
  rw [h3]
  rfl

/-- Is the degree positive. -/
theorem t1_v54 (h3 : V (Proc.devRef .tc main_v3) = Cert.ReferenceIdeal.Read.val_main_v3 (F := F) a1) :
    StableHlo.after hostOps3 V (Proc.devRef .tc main_v54) = Cert.ReferenceIdeal.Read.val_main_v57 (F := F) a1 := by
  dsimp only [hostOps3]
  after_results
  rw [h3]
  rfl

/-- The degree's inverse square root. -/
theorem t1_v55 (h3 : V (Proc.devRef .tc main_v3) = Cert.ReferenceIdeal.Read.val_main_v3 (F := F) a1) :
    StableHlo.after hostOps3 V (Proc.devRef .tc main_v55) = Cert.ReferenceIdeal.Read.val_main_v58 (F := F) a1 := by
  dsimp only [hostOps3]
  after_results
  rw [h3]
  rfl

theorem t1_cst_12 :
    StableHlo.after hostOps3 V (Proc.devRef .tc main_cst_12) = Cert.ReferenceIdeal.Read.val_main_cst_12 (F := F) := by
  dsimp only [hostOps3]
  after_results
  rfl

/-- The normalising factor per node. -/
theorem t2_v56 (h54 : V (Proc.devRef .tc main_v54) = Cert.ReferenceIdeal.Read.val_main_v57 (F := F) a1)
    (h55 : V (Proc.devRef .tc main_v55) = Cert.ReferenceIdeal.Read.val_main_v58 (F := F) a1)
    (hc : V (Proc.devRef .tc main_cst_12) = Cert.ReferenceIdeal.Read.val_main_cst_12 (F := F)) :
    StableHlo.after hostOps3_1 V (Proc.devRef .tc main_v56) = Cert.ReferenceIdeal.Read.val_main_v59 (F := F) a1 := by
  dsimp only [hostOps3_1]
  after_results
  simp only [StableHlo.TRef.ofBuf, StableHlo.TRef.toBuf, cast_eq]
  rw [h54, h55, hc]
  rfl

/-- The aggregation of the second layer's rows. -/
theorem t3_v84 (h47 : V (Proc.devRef .tc main_v47) = Cert.ReferenceIdeal.Read.val_main_v50 (F := F) a1)
    (h48 : V (Proc.devRef .tc main_v48) = Cert.ReferenceIdeal.Read.val_main_v51 (F := F) a1)
    (h56 : V (Proc.devRef .tc main_v56) = Cert.ReferenceIdeal.Read.val_main_v59 (F := F) a1)
    (h45 : V (Proc.devRef .tc main_v45) = Cert.ReferenceIdeal.Read.val_main_v48 (F := F) a0 a1 a2 a3 a4) :
    StableHlo.after hostOps3_2 V (Proc.devRef .tc main_v84) = Cert.ReferenceIdeal.Read.val_main_v87 (F := F) a0 a1 a2 a3 a4 := by
  dsimp only [hostOps3_2]
  after_results_simp
  rw [h47, h48, h56, h45]
  rfl

end Stretches2
theorem W2_v1 : W2 m ρ c (Proc.devRef .tc main_v1) = Cert.ReferenceIdeal.Read.val_main_v1 (F := F) x1 :=
  (W2_v1_carry m ρ c).trans (W1_v1 m ρ c)
theorem W2_v3 : W2 m ρ c (Proc.devRef .tc main_v3) = Cert.ReferenceIdeal.Read.val_main_v3 (F := F) x1 :=
  (W2_v3_carry m ρ c).trans (W1_v3 m ρ c)
theorem W7_v1 : W7 m ρ c (Proc.devRef .tc main_v1) = Cert.ReferenceIdeal.Read.val_main_v1 (F := F) x1 :=
  (W7_v1_carry m ρ c).trans (W1_v1 m ρ c)
theorem W7_v3 : W7 m ρ c (Proc.devRef .tc main_v3) = Cert.ReferenceIdeal.Read.val_main_v3 (F := F) x1 :=
  (W7_v3_carry m ρ c).trans (W1_v3 m ρ c)

theorem W5_v43 (h : W2 m ρ c (Proc.devRef .tc main_v4) = Cert.ReferenceIdeal.Read.val_main_v4 (F := F) x0 x2) :
    W5 m ρ c (Proc.devRef .tc main_v43) = Cert.ReferenceIdeal.Read.val_main_v43 (F := F) x0 x1 x2 := by
  have e6 : W4 m ρ c (Proc.devRef .tc main_v6) = Cert.ReferenceIdeal.Read.val_main_v6 (F := F) x1 :=
    calc W4 m ρ c (Proc.devRef .tc main_v6)
      _ = W3 m ρ c (Proc.devRef .tc main_v6) := by host_carry
      _ = _ := s1_v6 (W2 m ρ c) x1 (W2_v1 m ρ c)
  have e7 : W4 m ρ c (Proc.devRef .tc main_v7) = Cert.ReferenceIdeal.Read.val_main_v7 (F := F) x1 :=
    calc W4 m ρ c (Proc.devRef .tc main_v7)
      _ = W3 m ρ c (Proc.devRef .tc main_v7) := by host_carry
      _ = _ := s1_v7 (W2 m ρ c) x1 (W2_v3 m ρ c)
  have e15 : W4 m ρ c (Proc.devRef .tc main_v15) = Cert.ReferenceIdeal.Read.val_main_v15 (F := F) x1 :=
    s2_v15 (W3 m ρ c) x1 (s1_v13 (W2 m ρ c) x1 (W2_v3 m ρ c)) (s1_v14 (W2 m ρ c) x1 (W2_v3 m ρ c)) (s1_cst_2 (W2 m ρ c))
  have e4 : W4 m ρ c (Proc.devRef .tc main_v4) = Cert.ReferenceIdeal.Read.val_main_v4 (F := F) x0 x2 :=
    calc W4 m ρ c (Proc.devRef .tc main_v4)
      _ = W3 m ρ c (Proc.devRef .tc main_v4) := by host_carry
      _ = W2 m ρ c (Proc.devRef .tc main_v4) := by host_carry
      _ = _ := h
  exact s3_v43 (W4 m ρ c) x0 x1 x2 e6 e7 e15 e4

theorem W10_v84 (h : W7 m ρ c (Proc.devRef .tc main_v45) = Cert.ReferenceIdeal.Read.val_main_v48 (F := F) x0 x1 x2 x3 x4) :
    W10 m ρ c (Proc.devRef .tc main_v84) = Cert.ReferenceIdeal.Read.val_main_v87 (F := F) x0 x1 x2 x3 x4 := by
  have e47 : W9 m ρ c (Proc.devRef .tc main_v47) = Cert.ReferenceIdeal.Read.val_main_v50 (F := F) x1 :=
    calc W9 m ρ c (Proc.devRef .tc main_v47)
      _ = W8 m ρ c (Proc.devRef .tc main_v47) := by host_carry
      _ = _ := t1_v47 (W7 m ρ c) x1 (W7_v1 m ρ c)
  have e48 : W9 m ρ c (Proc.devRef .tc main_v48) = Cert.ReferenceIdeal.Read.val_main_v51 (F := F) x1 :=
    calc W9 m ρ c (Proc.devRef .tc main_v48)
      _ = W8 m ρ c (Proc.devRef .tc main_v48) := by host_carry
      _ = _ := t1_v48 (W7 m ρ c) x1 (W7_v3 m ρ c)
  have e56 : W9 m ρ c (Proc.devRef .tc main_v56) = Cert.ReferenceIdeal.Read.val_main_v59 (F := F) x1 :=
    t2_v56 (W8 m ρ c) x1 (t1_v54 (W7 m ρ c) x1 (W7_v3 m ρ c)) (t1_v55 (W7 m ρ c) x1 (W7_v3 m ρ c)) (t1_cst_12 (W7 m ρ c))
  have e45 : W9 m ρ c (Proc.devRef .tc main_v45) = Cert.ReferenceIdeal.Read.val_main_v48 (F := F) x0 x1 x2 x3 x4 :=
    calc W9 m ρ c (Proc.devRef .tc main_v45)
      _ = W8 m ρ c (Proc.devRef .tc main_v45) := by host_carry
      _ = W7 m ρ c (Proc.devRef .tc main_v45) := by host_carry
      _ = _ := h
  exact t3_v84 (W9 m ρ c) x0 x1 x2 x3 x4 e47 e48 e56 e45

end Cert.KernelIdeal.Chain
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.RefStages.lean ====
/-
  The reference program's four dense stages, each as one function of whole arrays over the extended reals:
  the two matrix products, the first layer's epilogue (bias, then the maximum with zero) and the second layer's
  epilogue (bias, then the log-softmax of each row).

  Each stage is read entry by entry. A bias vector laid as one row and spread over all rows reads, at (p, q), the
  vector at q. A row's maximum is the fold of `max` over the row's forty entries from the value of the −∞ literal;
  the further maximum with that literal changes nothing, since the fold is already at least its initial value. A
  row's sum of exponentials starts from the zero literal, which is the zero of the extended reals.
-/
import proofs.«119146_j33277406609480_1_alg».proof.Proof.RefReadPatched
import proofs.«119146_j33277406609480_1_alg».proof.Proof.Spec
import proofs.«119146_j33277406609480_1_alg».proof.Proof.LibRowBlockProduct
import proofs.«119146_j33277406609480_1_alg».proof.Proof.LibBroadcastInDim
import Idealize.ShloMosaic.Lib.ValueIdx
import Idealize.ShloMosaic.PureOps.Ideal.Laws
import Idealize.ShloMosaic.PureOps.Reduce

open scoped BigOperators

noncomputable section

namespace Cert.ReferenceIdeal.Stages

open Cert.ReferenceIdeal Cert.ReferenceIdeal.Read Idealize.ShloMosaic Idealize.ShloMosaic.ValueIdx

variable (x0 : (⟨S50000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal))

/-! ## The two matrix products -/

/-- The first projection is the matrix product. -/
theorem ref_mm1 : val_main_v4 (F := Ideal) x0 x2 = RowBlockProduct.prod (R := 50000) (K := 256) (N := 128) x0 x2 := by
  unfold val_main_v4
  exact RowBlockProduct.dotGeneral_eq_prod ⟨rfl, rfl, rfl, rfl, rfl, rfl⟩ none x0 x2

/-! ## The first layer's epilogue -/

/-- The bias of 128 entries, laid as one row and spread over all rows, is read at (p, q) at its entry q. -/
theorem idx_bias128 (p : Fin 50000) (q : Fin 128) : idx_main_v44 (idx_main_v45 (ix2 p q)) = ix1 q := by
  funext a
  match a with
  | ⟨0, _⟩ => rfl

/-- The first layer's epilogue: the aggregate plus the bias of the column, or zero if that is larger. -/
theorem ref_relu : val_main_v47 (F := Ideal) x0 x1 x2 x3 = Cert.Spec.biasRelu (R := 50000) (N := 128) (0 : EReal) (val_main_v43 (F := Ideal) x0 x1 x2) x3 := by
  funext i
  obtain ⟨p, q, rfl⟩ : ∃ (p : Fin 50000) (q : Fin 128), i = ix2 p q := ⟨i 0, i 1, eq_ix2 i⟩
  rw [Cert.Spec.biasRelu_apply, val_main_v47_apply, val_main_v46_apply, val_main_v45_apply, val_main_v44_apply,
    val_main_call1_v0_apply, val_main_call1_cst_apply, idx_bias128]
  simp only [Ideal.maximumf_def, Ideal.addf_def, Ideal.ofBits_def, Ideal.ofBits_zero_f32]

/-- The second projection is the matrix product. -/
theorem ref_mm2 : val_main_v48 (F := Ideal) x0 x1 x2 x3 x4 = RowBlockProduct.prod (R := 50000) (K := 128) (N := 40) (val_main_v47 (F := Ideal) x0 x1 x2 x3) x4 := by
  unfold val_main_v48
  exact RowBlockProduct.dotGeneral_eq_prod ⟨rfl, rfl, rfl, rfl, rfl, rfl⟩ none (val_main_v47 (F := Ideal) x0 x1 x2 x3) x4

/-! ## The second layer's epilogue -/

/-- The value of the −∞ literal, kept as the literal's word. -/
local notation "negInf" => Ideal.ofBits FTy.f32 0xFF800000#32

/-- The bias of 40 entries, laid as one row and spread over all rows, is read at (p, k) at its entry k. -/
theorem idx_bias40 (p : Fin 50000) (k : Fin 40) : idx_main_v88 (idx_main_v89 (ix2 p k)) = ix1 k := by
  funext a
  match a with
  | ⟨0, _⟩ => rfl

/-- A per-row value laid as one column and spread over all columns is read at (p, q) at the row p. -/
theorem idx_col_max (p : Fin 50000) (q : Fin 40) : idx_main_call3_v3 (idx_main_call3_v4 (ix2 p q)) = ix1 p := by
  funext a
  match a with
  | ⟨0, _⟩ => rfl

/-- The same reading for the column that holds the logarithm of each row's sum. -/
theorem idx_col_log (p : Fin 50000) (q : Fin 40) : idx_main_call3_v8 (idx_main_call3_v10 (ix2 p q)) = ix1 p := by
  funext a
  match a with
  | ⟨0, _⟩ => rfl

/-- The index of row p with the column k put back. -/
theorem idx_sum_row (p : Fin 50000) (k : Fin 40) : idx_main_call3_v7 (ix1 p) k = ix2 p k := by
  funext a
  match a with
  | ⟨0, _⟩ => rfl
  | ⟨1, _⟩ => rfl

/-- Likewise for the index a one-axis reduction inserts the dropped coordinate into. -/
theorem lift_row (h : S50000x40.Reduces [1] S50000) (p : Fin 50000) (k : Fin 40) : h.lift (ix1 p) k = ix2 p k := by
  funext c
  apply Fin.ext
  match c with
  | ⟨0, _⟩ => rfl
  | ⟨1, _⟩ => rfl

/-- The biased aggregate at (p, k). -/
theorem v90_at (p : Fin 50000) (k : Fin 40) :
    val_main_v90 (F := Ideal) x0 x1 x2 x3 x4 x5 (ix2 p k)
      = val_main_v87 (F := Ideal) x0 x1 x2 x3 x4 (ix2 p k) + x5 (ix1 k) := by
  rw [val_main_v90_apply, val_main_v89_apply, val_main_v88_apply, idx_bias40]
  rfl

/-- A reduction with `max` over the columns of any array of forty columns is, at row p, the fold of `max` over the
    row's entries from the −∞ literal's value. -/
theorem rowmax_of (y : (⟨S50000x40, .f32⟩ : BufTy).Contents (Elt Ideal)) (z : Fin 40 → EReal) (p : Fin 50000)
    (hy : ∀ k : Fin 40, y (ix2 p k) = z k) :
    Host.reduce (FloatOps.maximumf (F := Ideal) (φ := .f32)) y (val_main_call3_cst (F := Ideal))
        Gen.reducesTo_S50000x40_S50000_d1 Gen.h_S_ (ix1 p)
      = Cert.Spec.rowMax negInf z := by
  have h : S50000x40.Reduces [1] S50000 := by decide
  refine (Host.reduce_eq_fold_single (FloatOps.maximumf (F := Ideal) (φ := .f32)) y
    (val_main_call3_cst (F := Ideal)) Gen.reducesTo_S50000x40_S50000_d1 h Gen.h_S_ (ix1 p)).trans ?_
  have e : (y ∘ h.lift (ix1 p)) = z := funext fun k => (congrArg y (lift_row h p k)).trans (hy k)
  exact congrArg (fun f : Fin 40 → EReal => (Finset.univ : Finset (Fin 40)).fold max negInf f) e

/-- So the reference's row maximum is, at row p, the maximum of the biased aggregate's row p. -/
theorem rowmax_at (p : Fin 50000) :
    val_main_call3_v0 (F := Ideal) x0 x1 x2 x3 x4 x5 (ix1 p)
      = Cert.Spec.rowMax negInf (fun k : Fin 40 => val_main_v87 (F := Ideal) x0 x1 x2 x3 x4 (ix2 p k) + x5 (ix1 k)) := by
  unfold val_main_call3_v0
  exact rowmax_of (val_main_v90 (F := Ideal) x0 x1 x2 x3 x4 x5) _ p (v90_at x0 x1 x2 x3 x4 x5 p)

/-- The further maximum with the −∞ literal's value changes nothing: the fold is already at least its initial value. -/
theorem v2_at (p : Fin 50000) :
    val_main_call3_v2 (F := Ideal) x0 x1 x2 x3 x4 x5 (ix1 p)
      = Cert.Spec.rowMax negInf (fun k : Fin 40 => val_main_v87 (F := Ideal) x0 x1 x2 x3 x4 (ix2 p k) + x5 (ix1 k)) := by
  rw [val_main_call3_v2_apply, val_main_call3_v1_apply, val_main_call3_cst_0_apply, rowmax_at]
  exact Cert.Spec.max_rowMax _ _

/-- The shifted entry at (p, k): the biased aggregate less its row's maximum. -/
theorem v5_at (p : Fin 50000) (k : Fin 40) :
    val_main_call3_v5 (F := Ideal) x0 x1 x2 x3 x4 x5 (ix2 p k)
      = (val_main_v87 (F := Ideal) x0 x1 x2 x3 x4 (ix2 p k) + x5 (ix1 k))
        - Cert.Spec.rowMax negInf (fun k : Fin 40 => val_main_v87 (F := Ideal) x0 x1 x2 x3 x4 (ix2 p k) + x5 (ix1 k)) := by
  rw [val_main_call3_v5_apply, val_main_call3_v4_apply, val_main_call3_v3_apply, idx_col_max, v2_at, v90_at]
  rfl

/-- The sum of the exponentials of row p's shifted entries: the zero literal is the zero of the extended reals. -/
theorem v7_at (p : Fin 50000) :
    val_main_call3_v7 (F := Ideal) x0 x1 x2 x3 x4 x5 (ix1 p)
      = ∑ k : Fin 40, Ideal.exp ((val_main_v87 (F := Ideal) x0 x1 x2 x3 x4 (ix2 p k) + x5 (ix1 k))
          - Cert.Spec.rowMax negInf (fun k : Fin 40 => val_main_v87 (F := Ideal) x0 x1 x2 x3 x4 (ix2 p k) + x5 (ix1 k))) := by
  rw [val_main_call3_v7_apply, val_main_call3_cst_1_apply]
  refine (congrArg (· + _) Ideal.ofBits_zero_f32).trans ?_
  rw [zero_add]
  refine Finset.sum_congr rfl fun k _ => ?_
  rw [idx_sum_row, val_main_call3_v6_apply, v5_at]
  exact Ideal.hostUnary_exp_def _

/-- The second layer's epilogue: the log-softmax of each row of the aggregate with the bias added. -/
theorem ref_lsm : val_main_v91 (F := Ideal) x0 x1 x2 x3 x4 x5 = Cert.Spec.biasLsm (R := 50000) (N := 40) (Ideal.ofBits .f32 0xFF800000#32) (val_main_v87 (F := Ideal) x0 x1 x2 x3 x4) x5 := by
  funext i
  obtain ⟨p, q, rfl⟩ : ∃ (p : Fin 50000) (q : Fin 40), i = ix2 p q := ⟨i 0, i 1, eq_ix2 i⟩
  rw [Cert.Spec.biasLsm_apply, val_main_v91_apply, val_main_call3_v10_apply, val_main_call3_v9_apply,
    val_main_call3_v8_apply, idx_col_log, v7_at, v5_at, Ideal.subf_def, Ideal.hostUnary_log_def]
  rfl

end Cert.ReferenceIdeal.Stages

end
-- ==== Proof.KernelValue.lean ====
/-
  The kernel program's result as a function of its arguments.

  The program is four launches among host operations. Boundary by boundary, each buffer that matters holds what the
  reference's host program holds in the matching buffer, as a function of the six arguments:
  the first launch leaves the product of the features and the first weights (the reference's first dot product);
  the host operations after it, which are the reference's own, leave the first aggregate;
  the second launch leaves the aggregate with the bias added and the maximum with zero taken (the reference's relu);
  the third launch leaves the product of that with the second weights; the host operations after it leave the
  second aggregate; the fourth launch leaves the row-wise log-softmax of that aggregate with the second bias added,
  which is the reference's result.
-/
import proofs.«119146_j33277406609480_1_alg».proof.Proof.KernelRunNamed
import proofs.«119146_j33277406609480_1_alg».proof.Proof.Region0
import proofs.«119146_j33277406609480_1_alg».proof.Proof.Region1
import proofs.«119146_j33277406609480_1_alg».proof.Proof.Region2
import proofs.«119146_j33277406609480_1_alg».proof.Proof.Region3
import proofs.«119146_j33277406609480_1_alg».proof.Proof.KernelChain
import proofs.«119146_j33277406609480_1_alg».proof.Proof.RefStages

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The host operations before the first launch write neither the features nor the first weights. -/
theorem W1_main_arg0 : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem W1_main_arg2 : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- After the first launch its output holds the reference's first dot product of the arguments. -/
theorem W2_v4 : W2 m ρ c (Proc.devRef .tc main_v4)
    = Cert.ReferenceIdeal.Read.val_main_v4 (F := Ideal) (m ((c : Thread nD τ).loc main_arg0)) (m ((c : Thread nD τ).loc main_arg2)) := by
  refine (W2_arr m ρ c 2).trans ?_
  refine (Cert.KernelIdeal.Regions.final0 (V1 m ρ) c).trans ?_
  rw [Cert.ReferenceIdeal.Stages.ref_mm1]
  exact congrArg₂ (fun a b => RowBlockProduct.prod (R := 50000) (K := 256) (N := 128) a b) (W1_main_arg0 m ρ c) (W1_main_arg2 m ρ c)

/-- After the second launch its output holds the reference's first layer. -/
theorem W6_v44 : W6 m ρ c (Proc.devRef .tc main_v44)
    = Cert.ReferenceIdeal.Read.val_main_v47 (F := Ideal) (m ((c : Thread nD τ).loc main_arg0)) (m ((c : Thread nD τ).loc main_arg1))
        (m ((c : Thread nD τ).loc main_arg2)) (m ((c : Thread nD τ).loc main_arg3)) := by
  refine (W6_arr m ρ c 2).trans ?_
  refine (Cert.KernelIdeal.Regions.final1 (V5 m ρ) c).trans ?_
  rw [Cert.ReferenceIdeal.Stages.ref_relu]
  exact congrArg₂ (fun a b => Cert.Spec.biasRelu (R := 50000) (N := 128) (0 : EReal) a b)
    (Cert.KernelIdeal.Chain.W5_v43 m ρ c (W2_v4 m ρ c)) (Cert.KernelIdeal.Chain.W5_arg3 m ρ c)

/-- After the third launch its output holds the reference's second dot product. -/
theorem W7_v45 : W7 m ρ c (Proc.devRef .tc main_v45)
    = Cert.ReferenceIdeal.Read.val_main_v48 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (W7_arr m ρ c 2).trans ?_
  refine (Cert.KernelIdeal.Regions.final2 (V6 m ρ) c).trans ?_
  rw [Cert.ReferenceIdeal.Stages.ref_mm2]
  exact congrArg₂ (fun a b => RowBlockProduct.prod (R := 50000) (K := 128) (N := 40) a b)
    (W6_v44 m ρ c) (Cert.KernelIdeal.Chain.W6_arg4 m ρ c)

/-- After the fourth launch its output, the program's result, holds the reference's result. -/
theorem W11_v85 : W11 m ρ c (Proc.devRef .tc main_v85)
    = Cert.ReferenceIdeal.Read.val_main_v91 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (W11_arr m ρ c 2).trans ?_
  refine (Cert.KernelIdeal.Regions.final3 (V10 m ρ) c).trans ?_
  rw [Cert.ReferenceIdeal.Stages.ref_lsm]
  exact congrArg₂ (fun a b => Cert.Spec.biasLsm (R := 50000) (N := 40) (Ideal.ofBits .f32 0xFF800000#32) a b)
    (Cert.KernelIdeal.Chain.W10_v84 m ρ c (W7_v45 m ρ c)) (Cert.KernelIdeal.Chain.W10_arg5 m ρ c)

end Cert.KernelIdeal.Result

end
-- ==== Proof.RefRunStages.lean ====
/-
  What the reference's host program leaves in its result buffer: its last stage of the six arguments.

  The program is one line of 134 host operations. What a buffer holds after the line is read in eleven stretches, cut where
  the program's own stages end: the edge list's two rows, the first projection and the node numbering; the rows with one
  self-loop per node appended, the degree, whether it is positive and its inverse square root; the normalising factor
  (that root where the degree is positive, zero elsewhere); the aggregation (the factor gathered at the sources and at the
  targets, the two multiplied, the projection's rows gathered at the sources, scaled, and scatter-added at the targets);
  the bias, the rectifier, the second projection and the node numbering again; the same three stretches on the second
  layer's rows; the second bias and each row's maximum; the rows shifted by their maximum; the logarithm of each
  shifted row's sum of exponentials, subtracted (the log-softmax). After each stretch the few buffers a later one reads hold the
  matching stage of the arguments, and a buffer the stretch does not write holds what it held; the stretches compose.
-/
import proofs.«119146_j33277406609480_1_alg».proof.Proof.RefReadPatched

noncomputable section

namespace Cert.ReferenceIdeal.RunStages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- A line of operations run from `V` is its first `n` operations run from `V`, then the rest run from what they leave. -/
theorem after_take_drop {τ : Topo} {sig : RefSig} {Val : EltTy → Type} (n : ℕ) :
    ∀ (l : List (HloOp τ sig Val)) (V : Valuation τ sig Val), after l V = after (l.drop n) (after (l.take n) V) := by
  induction n with
  | zero => intro l V; rfl
  | succ n ih =>
    intro l V
    cases l with
    | nil => rfl
    | cons a l => exact ih l (a.result V)

/-! ## The eleven stretches of the line, and what is left after each -/

abbrev st0 : List (HloOp τ sig (Elt F)) := (ops (F := F)).take 6
abbrev r0 : List (HloOp τ sig (Elt F)) := (ops (F := F)).drop 6
abbrev st1 : List (HloOp τ sig (Elt F)) := (r0 (F := F)).take 13
abbrev r1 : List (HloOp τ sig (Elt F)) := (r0 (F := F)).drop 13
abbrev st2 : List (HloOp τ sig (Elt F)) := (r1 (F := F)).take 3
abbrev r2 : List (HloOp τ sig (Elt F)) := (r1 (F := F)).drop 3
abbrev st3 : List (HloOp τ sig (Elt F)) := (r2 (F := F)).take 35
abbrev r3 : List (HloOp τ sig (Elt F)) := (r2 (F := F)).drop 35
abbrev st4 : List (HloOp τ sig (Elt F)) := (r3 (F := F)).take 8
abbrev r4 : List (HloOp τ sig (Elt F)) := (r3 (F := F)).drop 8
abbrev st5 : List (HloOp τ sig (Elt F)) := (r4 (F := F)).take 13
abbrev r5 : List (HloOp τ sig (Elt F)) := (r4 (F := F)).drop 13
abbrev st6 : List (HloOp τ sig (Elt F)) := (r5 (F := F)).take 3
abbrev r6 : List (HloOp τ sig (Elt F)) := (r5 (F := F)).drop 3
abbrev st7 : List (HloOp τ sig (Elt F)) := (r6 (F := F)).take 35
abbrev r7 : List (HloOp τ sig (Elt F)) := (r6 (F := F)).drop 35
abbrev st8 : List (HloOp τ sig (Elt F)) := (r7 (F := F)).take 5
abbrev r8 : List (HloOp τ sig (Elt F)) := (r7 (F := F)).drop 5
abbrev st9 : List (HloOp τ sig (Elt F)) := (r8 (F := F)).take 6
abbrev st10 : List (HloOp τ sig (Elt F)) := (r8 (F := F)).drop 6

theorem after_ops (V : Valuation τ sig (Elt F)) :
    after (ops (F := F)) V
      = after st10 (after st9 (after st8 (after st7 (after st6 (after st5 (after st4 (after st3 (after st2 (after st1
          (after st0 V)))))))))) :=
  (after_take_drop 6 ops V).trans <| (after_take_drop 13 r0 _).trans <| (after_take_drop 3 r1 _).trans <|
    (after_take_drop 35 r2 _).trans <| (after_take_drop 8 r3 _).trans <| (after_take_drop 13 r4 _).trans <|
    (after_take_drop 3 r5 _).trans <| (after_take_drop 35 r6 _).trans <| (after_take_drop 5 r7 _).trans <|
    (after_take_drop 6 r8 _)

/-- Spell a stretch's operations out. -/
local macro "stretch_spell" : tactic =>
  `(tactic| (set_option maxRecDepth 16384 in
      simp only [st0, st1, st2, st3, st4, st5, st6, st7, st8, st9, st10, r0, r1, r2, r3, r4, r5, r6, r7, r8, ops,
        List.take_succ_cons, List.take_zero, List.drop_succ_cons, List.drop_zero]))

variable (x0 : (⟨S50000x256, .f32⟩ : BufTy).Contents (Elt F)) (x1 : (⟨S2x1600000, .i32⟩ : BufTy).Contents (Elt F))
  (x2 : (⟨S256x128, .f32⟩ : BufTy).Contents (Elt F)) (x3 : (⟨S128, .f32⟩ : BufTy).Contents (Elt F))
  (x4 : (⟨S128x40, .f32⟩ : BufTy).Contents (Elt F)) (x5 : (⟨S40, .f32⟩ : BufTy).Contents (Elt F))

/-! ## First stretch: the edge list's rows, the first projection, the node numbering -/

theorem p0_v1 (V : Valuation τ sig (Elt F)) :
    after (st0 (F := F)) V (Proc.devRef .tc main_v1) = val_main_v1 (F := F) (V (Proc.devRef .tc main_arg1)) := by
  stretch_spell
  after_results_simp
  rfl
theorem p0_v3 (V : Valuation τ sig (Elt F)) :
    after (st0 (F := F)) V (Proc.devRef .tc main_v3) = val_main_v3 (F := F) (V (Proc.devRef .tc main_arg1)) := by
  stretch_spell
  after_results_simp
  rfl
theorem p0_v4 (V : Valuation τ sig (Elt F)) :
    after (st0 (F := F)) V (Proc.devRef .tc main_v4)
      = val_main_v4 (F := F) (V (Proc.devRef .tc main_arg0)) (V (Proc.devRef .tc main_arg2)) := by
  stretch_spell
  after_results_simp
  rfl
theorem p0_v5 (V : Valuation τ sig (Elt F)) :
    after (st0 (F := F)) V (Proc.devRef .tc main_v5) = val_main_v5 (F := F) := by
  stretch_spell
  after_results_simp
  rfl
theorem c0_a3 (V : Valuation τ sig (Elt F)) :
    after (st0 (F := F)) V (Proc.devRef .tc main_arg3) = V (Proc.devRef .tc main_arg3) := by
  stretch_spell
  after_results_simp
theorem c0_a4 (V : Valuation τ sig (Elt F)) :
    after (st0 (F := F)) V (Proc.devRef .tc main_arg4) = V (Proc.devRef .tc main_arg4) := by
  stretch_spell
  after_results_simp
theorem c0_a5 (V : Valuation τ sig (Elt F)) :
    after (st0 (F := F)) V (Proc.devRef .tc main_arg5) = V (Proc.devRef .tc main_arg5) := by
  stretch_spell
  after_results_simp

/-! ## Second stretch: self-loops appended, the degree, its sign and its inverse square root -/

theorem p1_v6 (V : Valuation τ sig (Elt F)) (h1 : V (Proc.devRef .tc main_v1) = val_main_v1 (F := F) x1)
    (h5 : V (Proc.devRef .tc main_v5) = val_main_v5 (F := F)) :
    after (st1 (F := F)) V (Proc.devRef .tc main_v6) = val_main_v6 (F := F) x1 := by
  stretch_spell
  after_results
  rw [h1, h5]
  rfl
theorem p1_v7 (V : Valuation τ sig (Elt F)) (h3 : V (Proc.devRef .tc main_v3) = val_main_v3 (F := F) x1)
    (h5 : V (Proc.devRef .tc main_v5) = val_main_v5 (F := F)) :
    after (st1 (F := F)) V (Proc.devRef .tc main_v7) = val_main_v7 (F := F) x1 := by
  stretch_spell
  after_results
  rw [h3, h5]
  rfl
theorem p1_v13 (V : Valuation τ sig (Elt F)) (h3 : V (Proc.devRef .tc main_v3) = val_main_v3 (F := F) x1)
    (h5 : V (Proc.devRef .tc main_v5) = val_main_v5 (F := F)) :
    after (st1 (F := F)) V (Proc.devRef .tc main_v13) = val_main_v13 (F := F) x1 := by
  stretch_spell
  after_results
  rw [h3, h5]
  rfl
theorem p1_v14 (V : Valuation τ sig (Elt F)) (h3 : V (Proc.devRef .tc main_v3) = val_main_v3 (F := F) x1)
    (h5 : V (Proc.devRef .tc main_v5) = val_main_v5 (F := F)) :
    after (st1 (F := F)) V (Proc.devRef .tc main_v14) = val_main_v14 (F := F) x1 := by
  stretch_spell
  after_results
  rw [h3, h5]
  rfl
theorem p1_cst_2 (V : Valuation τ sig (Elt F)) :
    after (st1 (F := F)) V (Proc.devRef .tc main_cst_2) = val_main_cst_2 (F := F) := by
  stretch_spell
  after_results
  rfl
theorem c1_v1 (V : Valuation τ sig (Elt F)) :
    after (st1 (F := F)) V (Proc.devRef .tc main_v1) = V (Proc.devRef .tc main_v1) := by
  stretch_spell
  after_results_simp
theorem c1_v3 (V : Valuation τ sig (Elt F)) :
    after (st1 (F := F)) V (Proc.devRef .tc main_v3) = V (Proc.devRef .tc main_v3) := by
  stretch_spell
  after_results_simp
theorem c1_v4 (V : Valuation τ sig (Elt F)) :
    after (st1 (F := F)) V (Proc.devRef .tc main_v4) = V (Proc.devRef .tc main_v4) := by
  stretch_spell
  after_results_simp
theorem c1_a3 (V : Valuation τ sig (Elt F)) :
    after (st1 (F := F)) V (Proc.devRef .tc main_arg3) = V (Proc.devRef .tc main_arg3) := by
  stretch_spell
  after_results_simp
theorem c1_a4 (V : Valuation τ sig (Elt F)) :
    after (st1 (F := F)) V (Proc.devRef .tc main_arg4) = V (Proc.devRef .tc main_arg4) := by
  stretch_spell
  after_results_simp
theorem c1_a5 (V : Valuation τ sig (Elt F)) :
    after (st1 (F := F)) V (Proc.devRef .tc main_arg5) = V (Proc.devRef .tc main_arg5) := by
  stretch_spell
  after_results_simp

/-! ## Third stretch: the normalising factor per node -/

theorem p2_v15 (V : Valuation τ sig (Elt F)) (h13 : V (Proc.devRef .tc main_v13) = val_main_v13 (F := F) x1)
    (h14 : V (Proc.devRef .tc main_v14) = val_main_v14 (F := F) x1) (hc : V (Proc.devRef .tc main_cst_2) = val_main_cst_2 (F := F)) :
    after (st2 (F := F)) V (Proc.devRef .tc main_v15) = val_main_v15 (F := F) x1 := by
  stretch_spell
  after_results
  simp only [TRef.ofBuf, TRef.toBuf, cast_eq]
  rw [h13, h14, hc]
  rfl
theorem c2_v6 (V : Valuation τ sig (Elt F)) :
    after (st2 (F := F)) V (Proc.devRef .tc main_v6) = V (Proc.devRef .tc main_v6) := by
  stretch_spell
  after_results_simp
theorem c2_v7 (V : Valuation τ sig (Elt F)) :
    after (st2 (F := F)) V (Proc.devRef .tc main_v7) = V (Proc.devRef .tc main_v7) := by
  stretch_spell
  after_results_simp
theorem c2_v4 (V : Valuation τ sig (Elt F)) :
    after (st2 (F := F)) V (Proc.devRef .tc main_v4) = V (Proc.devRef .tc main_v4) := by
  stretch_spell
  after_results_simp
theorem c2_v1 (V : Valuation τ sig (Elt F)) :
    after (st2 (F := F)) V (Proc.devRef .tc main_v1) = V (Proc.devRef .tc main_v1) := by
  stretch_spell
  after_results_simp
theorem c2_v3 (V : Valuation τ sig (Elt F)) :
    after (st2 (F := F)) V (Proc.devRef .tc main_v3) = V (Proc.devRef .tc main_v3) := by
  stretch_spell
  after_results_simp
theorem c2_a3 (V : Valuation τ sig (Elt F)) :
    after (st2 (F := F)) V (Proc.devRef .tc main_arg3) = V (Proc.devRef .tc main_arg3) := by
  stretch_spell
  after_results_simp
theorem c2_a4 (V : Valuation τ sig (Elt F)) :
    after (st2 (F := F)) V (Proc.devRef .tc main_arg4) = V (Proc.devRef .tc main_arg4) := by
  stretch_spell
  after_results_simp
theorem c2_a5 (V : Valuation τ sig (Elt F)) :
    after (st2 (F := F)) V (Proc.devRef .tc main_arg5) = V (Proc.devRef .tc main_arg5) := by
  stretch_spell
  after_results_simp

/-! ## Fourth stretch: the first layer's aggregation -/

theorem p3_v43 (V : Valuation τ sig (Elt F)) (h6 : V (Proc.devRef .tc main_v6) = val_main_v6 (F := F) x1)
    (h7 : V (Proc.devRef .tc main_v7) = val_main_v7 (F := F) x1) (h15 : V (Proc.devRef .tc main_v15) = val_main_v15 (F := F) x1)
    (h4 : V (Proc.devRef .tc main_v4) = val_main_v4 (F := F) x0 x2) :
    after (st3 (F := F)) V (Proc.devRef .tc main_v43) = val_main_v43 (F := F) x0 x1 x2 := by
  stretch_spell
  after_results_simp
  rw [h6, h7, h15, h4]
  rfl
theorem c3_v1 (V : Valuation τ sig (Elt F)) :
    after (st3 (F := F)) V (Proc.devRef .tc main_v1) = V (Proc.devRef .tc main_v1) := by
  stretch_spell
  after_results_simp
theorem c3_v3 (V : Valuation τ sig (Elt F)) :
    after (st3 (F := F)) V (Proc.devRef .tc main_v3) = V (Proc.devRef .tc main_v3) := by
  stretch_spell
  after_results_simp
theorem c3_a3 (V : Valuation τ sig (Elt F)) :
    after (st3 (F := F)) V (Proc.devRef .tc main_arg3) = V (Proc.devRef .tc main_arg3) := by
  stretch_spell
  after_results_simp
theorem c3_a4 (V : Valuation τ sig (Elt F)) :
    after (st3 (F := F)) V (Proc.devRef .tc main_arg4) = V (Proc.devRef .tc main_arg4) := by
  stretch_spell
  after_results_simp
theorem c3_a5 (V : Valuation τ sig (Elt F)) :
    after (st3 (F := F)) V (Proc.devRef .tc main_arg5) = V (Proc.devRef .tc main_arg5) := by
  stretch_spell
  after_results_simp

/-! ## Fifth stretch: the bias, the rectifier, the second projection, the node numbering again -/

theorem p4_v48 (V : Valuation τ sig (Elt F)) (h43 : V (Proc.devRef .tc main_v43) = val_main_v43 (F := F) x0 x1 x2)
    (ha3 : V (Proc.devRef .tc main_arg3) = x3) (ha4 : V (Proc.devRef .tc main_arg4) = x4) :
    after (st4 (F := F)) V (Proc.devRef .tc main_v48) = val_main_v48 (F := F) x0 x1 x2 x3 x4 := by
  stretch_spell
  after_results_simp
  simp only [TRef.ofBuf, TRef.toBuf, cast_eq]
  rw [h43, ha3, ha4]
  rfl
theorem p4_v49 (V : Valuation τ sig (Elt F)) :
    after (st4 (F := F)) V (Proc.devRef .tc main_v49) = val_main_v49 (F := F) := by
  stretch_spell
  after_results_simp
  rfl
theorem c4_v1 (V : Valuation τ sig (Elt F)) :
    after (st4 (F := F)) V (Proc.devRef .tc main_v1) = V (Proc.devRef .tc main_v1) := by
  stretch_spell
  after_results_simp
theorem c4_v3 (V : Valuation τ sig (Elt F)) :
    after (st4 (F := F)) V (Proc.devRef .tc main_v3) = V (Proc.devRef .tc main_v3) := by
  stretch_spell
  after_results_simp
theorem c4_a5 (V : Valuation τ sig (Elt F)) :
    after (st4 (F := F)) V (Proc.devRef .tc main_arg5) = V (Proc.devRef .tc main_arg5) := by
  stretch_spell
  after_results_simp

/-! ## Sixth stretch: self-loops appended, the degree, its sign and its inverse square root, again -/

theorem p5_v50 (V : Valuation τ sig (Elt F)) (h1 : V (Proc.devRef .tc main_v1) = val_main_v1 (F := F) x1)
    (h49 : V (Proc.devRef .tc main_v49) = val_main_v49 (F := F)) :
    after (st5 (F := F)) V (Proc.devRef .tc main_v50) = val_main_v50 (F := F) x1 := by
  stretch_spell
  after_results
  rw [h1, h49]
  rfl
theorem p5_v51 (V : Valuation τ sig (Elt F)) (h3 : V (Proc.devRef .tc main_v3) = val_main_v3 (F := F) x1)
    (h49 : V (Proc.devRef .tc main_v49) = val_main_v49 (F := F)) :
    after (st5 (F := F)) V (Proc.devRef .tc main_v51) = val_main_v51 (F := F) x1 := by
  stretch_spell
  after_results
  rw [h3, h49]
  rfl
theorem p5_v57 (V : Valuation τ sig (Elt F)) (h3 : V (Proc.devRef .tc main_v3) = val_main_v3 (F := F) x1)
    (h49 : V (Proc.devRef .tc main_v49) = val_main_v49 (F := F)) :
    after (st5 (F := F)) V (Proc.devRef .tc main_v57) = val_main_v57 (F := F) x1 := by
  stretch_spell
  after_results
  rw [h3, h49]
  rfl
theorem p5_v58 (V : Valuation τ sig (Elt F)) (h3 : V (Proc.devRef .tc main_v3) = val_main_v3 (F := F) x1)
    (h49 : V (Proc.devRef .tc main_v49) = val_main_v49 (F := F)) :
    after (st5 (F := F)) V (Proc.devRef .tc main_v58) = val_main_v58 (F := F) x1 := by
  stretch_spell
  after_results
  rw [h3, h49]
  rfl
theorem p5_cst_12 (V : Valuation τ sig (Elt F)) :
    after (st5 (F := F)) V (Proc.devRef .tc main_cst_12) = val_main_cst_12 (F := F) := by
  stretch_spell
  after_results
  rfl
theorem c5_v48 (V : Valuation τ sig (Elt F)) :
    after (st5 (F := F)) V (Proc.devRef .tc main_v48) = V (Proc.devRef .tc main_v48) := by
  stretch_spell
  after_results_simp
theorem c5_a5 (V : Valuation τ sig (Elt F)) :
    after (st5 (F := F)) V (Proc.devRef .tc main_arg5) = V (Proc.devRef .tc main_arg5) := by
  stretch_spell
  after_results_simp

/-! ## Seventh stretch: the normalising factor per node, again -/

theorem p6_v59 (V : Valuation τ sig (Elt F)) (h57 : V (Proc.devRef .tc main_v57) = val_main_v57 (F := F) x1)
    (h58 : V (Proc.devRef .tc main_v58) = val_main_v58 (F := F) x1) (hc : V (Proc.devRef .tc main_cst_12) = val_main_cst_12 (F := F)) :
    after (st6 (F := F)) V (Proc.devRef .tc main_v59) = val_main_v59 (F := F) x1 := by
  stretch_spell
  after_results
  simp only [TRef.ofBuf, TRef.toBuf, cast_eq]
  rw [h57, h58, hc]
  rfl
theorem c6_v50 (V : Valuation τ sig (Elt F)) :
    after (st6 (F := F)) V (Proc.devRef .tc main_v50) = V (Proc.devRef .tc main_v50) := by
  stretch_spell
  after_results_simp
theorem c6_v51 (V : Valuation τ sig (Elt F)) :
    after (st6 (F := F)) V (Proc.devRef .tc main_v51) = V (Proc.devRef .tc main_v51) := by
  stretch_spell
  after_results_simp
theorem c6_v48 (V : Valuation τ sig (Elt F)) :
    after (st6 (F := F)) V (Proc.devRef .tc main_v48) = V (Proc.devRef .tc main_v48) := by
  stretch_spell
  after_results_simp
theorem c6_a5 (V : Valuation τ sig (Elt F)) :
    after (st6 (F := F)) V (Proc.devRef .tc main_arg5) = V (Proc.devRef .tc main_arg5) := by
  stretch_spell
  after_results_simp

/-! ## Eighth stretch: the second layer's aggregation -/

theorem p7_v87 (V : Valuation τ sig (Elt F)) (h50 : V (Proc.devRef .tc main_v50) = val_main_v50 (F := F) x1)
    (h51 : V (Proc.devRef .tc main_v51) = val_main_v51 (F := F) x1) (h59 : V (Proc.devRef .tc main_v59) = val_main_v59 (F := F) x1)
    (h48 : V (Proc.devRef .tc main_v48) = val_main_v48 (F := F) x0 x1 x2 x3 x4) :
    after (st7 (F := F)) V (Proc.devRef .tc main_v87) = val_main_v87 (F := F) x0 x1 x2 x3 x4 := by
  stretch_spell
  after_results_simp
  rw [h50, h51, h59, h48]
  rfl
theorem c7_a5 (V : Valuation τ sig (Elt F)) :
    after (st7 (F := F)) V (Proc.devRef .tc main_arg5) = V (Proc.devRef .tc main_arg5) := by
  stretch_spell
  after_results_simp

/-! ## Ninth stretch: the second bias, and each row's maximum -/

theorem p8_v90 (V : Valuation τ sig (Elt F)) (h87 : V (Proc.devRef .tc main_v87) = val_main_v87 (F := F) x0 x1 x2 x3 x4)
    (ha5 : V (Proc.devRef .tc main_arg5) = x5) :
    after (st8 (F := F)) V (Proc.devRef .tc main_v90) = val_main_v90 (F := F) x0 x1 x2 x3 x4 x5 := by
  stretch_spell
  after_results_simp
  rw [h87, ha5]
  rfl
theorem p8_c3v0 (V : Valuation τ sig (Elt F)) (h87 : V (Proc.devRef .tc main_v87) = val_main_v87 (F := F) x0 x1 x2 x3 x4)
    (ha5 : V (Proc.devRef .tc main_arg5) = x5) :
    after (st8 (F := F)) V (Proc.devRef .tc main_call3_v0) = val_main_call3_v0 (F := F) x0 x1 x2 x3 x4 x5 := by
  stretch_spell
  after_results_simp
  simp only [TRef.ofBuf, TRef.toBuf, cast_eq]
  rw [h87, ha5]
  rfl

/-! ## Tenth stretch: each row shifted by its maximum -/

theorem p9_c3v5 (V : Valuation τ sig (Elt F)) (h90 : V (Proc.devRef .tc main_v90) = val_main_v90 (F := F) x0 x1 x2 x3 x4 x5)
    (h0 : V (Proc.devRef .tc main_call3_v0) = val_main_call3_v0 (F := F) x0 x1 x2 x3 x4 x5) :
    after (st9 (F := F)) V (Proc.devRef .tc main_call3_v5) = val_main_call3_v5 (F := F) x0 x1 x2 x3 x4 x5 := by
  stretch_spell
  after_results_simp
  simp only [TRef.ofBuf, TRef.toBuf, cast_eq]
  rw [h90, h0]
  rfl

/-! ## Eleventh stretch: the logarithm of each shifted row's sum of exponentials, subtracted -/

theorem p10_v91 (V : Valuation τ sig (Elt F))
    (h5 : V (Proc.devRef .tc main_call3_v5) = val_main_call3_v5 (F := F) x0 x1 x2 x3 x4 x5) :
    after (st10 (F := F)) V (Proc.devRef .tc main_v91) = val_main_v91 (F := F) x0 x1 x2 x3 x4 x5 := by
  stretch_spell
  after_results_simp
  simp only [TRef.ofBuf, TRef.toBuf, cast_eq]
  rw [h5]
  rfl

/-! ## The whole line -/

/-- After the whole line the result buffer holds the last stage of the six arguments. -/
theorem result_eq (V : Valuation τ sig (Elt F)) :
    after (ops (F := F)) V (Proc.devRef .tc main_v91)
      = val_main_v91 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops]
  -- after the first stretch
  have a_v1 := p0_v1 V
  have a_v3 := p0_v3 V
  have a_v4 := p0_v4 V
  have a_v5 := p0_v5 V
  have a_a3 := c0_a3 V
  have a_a4 := c0_a4 V
  have a_a5 := c0_a5 V
  generalize after st0 V = V1 at a_v1 a_v3 a_v4 a_v5 a_a3 a_a4 a_a5 ⊢
  -- after the second
  have b_v6 := p1_v6 _ V1 a_v1 a_v5
  have b_v7 := p1_v7 _ V1 a_v3 a_v5
  have b_v13 := p1_v13 _ V1 a_v3 a_v5
  have b_v14 := p1_v14 _ V1 a_v3 a_v5
  have b_c2 := p1_cst_2 V1
  have b_v1 := (c1_v1 V1).trans a_v1
  have b_v3 := (c1_v3 V1).trans a_v3
  have b_v4 := (c1_v4 V1).trans a_v4
  have b_a3 := (c1_a3 V1).trans a_a3
  have b_a4 := (c1_a4 V1).trans a_a4
  have b_a5 := (c1_a5 V1).trans a_a5
  generalize after st1 V1 = V2 at b_v6 b_v7 b_v13 b_v14 b_c2 b_v1 b_v3 b_v4 b_a3 b_a4 b_a5 ⊢
  -- after the third
  have c_v15 := p2_v15 _ V2 b_v13 b_v14 b_c2
  have c_v6 := (c2_v6 V2).trans b_v6
  have c_v7 := (c2_v7 V2).trans b_v7
  have c_v4 := (c2_v4 V2).trans b_v4
  have c_v1 := (c2_v1 V2).trans b_v1
  have c_v3 := (c2_v3 V2).trans b_v3
  have c_a3 := (c2_a3 V2).trans b_a3
  have c_a4 := (c2_a4 V2).trans b_a4
  have c_a5 := (c2_a5 V2).trans b_a5
  generalize after st2 V2 = V3 at c_v15 c_v6 c_v7 c_v4 c_v1 c_v3 c_a3 c_a4 c_a5 ⊢
  -- after the fourth
  have d_v43 := p3_v43 _ _ _ V3 c_v6 c_v7 c_v15 c_v4
  have d_v1 := (c3_v1 V3).trans c_v1
  have d_v3 := (c3_v3 V3).trans c_v3
  have d_a3 := (c3_a3 V3).trans c_a3
  have d_a4 := (c3_a4 V3).trans c_a4
  have d_a5 := (c3_a5 V3).trans c_a5
  generalize after st3 V3 = V4 at d_v43 d_v1 d_v3 d_a3 d_a4 d_a5 ⊢
  -- after the fifth
  have e_v48 := p4_v48 _ _ _ _ _ V4 d_v43 d_a3 d_a4
  have e_v49 := p4_v49 V4
  have e_v1 := (c4_v1 V4).trans d_v1
  have e_v3 := (c4_v3 V4).trans d_v3
  have e_a5 := (c4_a5 V4).trans d_a5
  generalize after st4 V4 = V5 at e_v48 e_v49 e_v1 e_v3 e_a5 ⊢
  -- after the sixth
  have f_v50 := p5_v50 _ V5 e_v1 e_v49
  have f_v51 := p5_v51 _ V5 e_v3 e_v49
  have f_v57 := p5_v57 _ V5 e_v3 e_v49
  have f_v58 := p5_v58 _ V5 e_v3 e_v49
  have f_c12 := p5_cst_12 V5
  have f_v48 := (c5_v48 V5).trans e_v48
  have f_a5 := (c5_a5 V5).trans e_a5
  generalize after st5 V5 = V6 at f_v50 f_v51 f_v57 f_v58 f_c12 f_v48 f_a5 ⊢
  -- after the seventh
  have g_v59 := p6_v59 _ V6 f_v57 f_v58 f_c12
  have g_v50 := (c6_v50 V6).trans f_v50
  have g_v51 := (c6_v51 V6).trans f_v51
  have g_v48 := (c6_v48 V6).trans f_v48
  have g_a5 := (c6_a5 V6).trans f_a5
  generalize after st6 V6 = V7 at g_v59 g_v50 g_v51 g_v48 g_a5 ⊢
  -- after the eighth
  have h_v87 := p7_v87 _ _ _ _ _ V7 g_v50 g_v51 g_v59 g_v48
  have h_a5 := (c7_a5 V7).trans g_a5
  generalize after st7 V7 = V8 at h_v87 h_a5 ⊢
  -- after the ninth
  have i_v90 := p8_v90 _ _ _ _ _ _ V8 h_v87 h_a5
  have i_m := p8_c3v0 _ _ _ _ _ _ V8 h_v87 h_a5
  generalize after st8 V8 = V9 at i_v90 i_m ⊢
  -- after the tenth, and the last
  have j_s := p9_c3v5 _ _ _ _ _ _ V9 i_v90 i_m
  generalize after st9 V9 = V10 at j_s ⊢
  exact p10_v91 _ _ _ _ _ _ V10 j_s

end Cert.ReferenceIdeal.RunStages

end
-- ==== Proof.RefRunLine.lean ====
/-
  The reference's host program runs: every weakly fair execution terminates, the result buffer holding the last stage of
  the six arguments (Proof/RefRunStages.lean) and the arguments unchanged (no operation writes an argument).
-/
import proofs.«119146_j33277406609480_1_alg».proof.Proof.RefRunStages

set_option maxRecDepth 16384

noncomputable section

namespace Cert.ReferenceIdeal.RunStages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- No operation of the line writes an argument. -/
theorem kept (V : Valuation τ sig (Elt F)) (b : Ref sig .tc)
    (hb : b = main_arg0 ∨ b = main_arg1 ∨ b = main_arg2 ∨ b = main_arg3 ∨ b = main_arg4 ∨ b = main_arg5) :
    after (ops (F := F)) V (Proc.devRef .tc b) = V (Proc.devRef .tc b) := by
  refine after_of_forall_not_mem (b := Proc.devRef .tc b) _ _ (List.forall_iff_forall_mem.mp ?_)
  simp only [ops, List.Forall, nullary_writes, unary_writes, binary_writes, ternary_writes, quaternary_writes, reshape_writes,
    binaryIndexed_writes, Finset.mem_singleton]
  rcases hb with rfl | rfl | rfl | rfl | rfl | rfl <;>
  · repeat' apply And.intro
    all_goals exact devRef_ne_of_ne (by decide)

set_option maxHeartbeats 4000000 in
/-- On every device, from any memory with zero counters: every weakly fair execution of @main terminates with the
    result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91)
        = val_main_v91 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (result_eq (launchContents m c)),
      (h c main_arg0).trans (kept (launchContents m c) main_arg0 (by simp)),
      (h c main_arg1).trans (kept (launchContents m c) main_arg1 (by simp)),
      (h c main_arg2).trans (kept (launchContents m c) main_arg2 (by simp)),
      (h c main_arg3).trans (kept (launchContents m c) main_arg3 (by simp)),
      (h c main_arg4).trans (kept (launchContents m c) main_arg4 (by simp)),
      (h c main_arg5).trans (kept (launchContents m c) main_arg5 (by simp))⟩)
    (run_seq scopedRefs_eq scopedSems_eq defs main (fun _ => ops) main_eq (fun _ => ops_sub) m ρ)

end Cert.ReferenceIdeal.RunStages

end
-- ==== Proof.Claims.lean ====
/-
  The five claims.

  The three frames: the two kernel programs' are the launch of their four regions among the host operations (generated,
  at any float instance); the reference's is its host program's run with the result dropped. The kernel's
  idealization rewrote nothing. At the extended reals the two idealized programs end with one and the same result array:
  the reference's last stage as a function of the six arguments — the kernel side by the boundary-by-boundary reading of
  its four launches and the host operations between them, the reference side by its run read stretch by stretch — and the
  two memories agree on those arguments.
-/
import proofs.«119146_j33277406609480_1_alg».proof.Defs
import proofs.«119146_j33277406609480_1_alg».proof.Proof.Gen.Kernel.Frame
import proofs.«119146_j33277406609480_1_alg».proof.Proof.Gen.KernelIdeal.Frame
import proofs.«119146_j33277406609480_1_alg».proof.Proof.Gen.Pre_finite_inputs
import proofs.«119146_j33277406609480_1_alg».proof.Proof.KernelValue
import proofs.«119146_j33277406609480_1_alg».proof.Proof.RefRunLine

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunStages.run (F := Ideal) m ρ)

theorem preserves : Cert.preserves_Kernel_KernelIdeal := trivial

/-- Both idealized programs end with the reference's last stage of the six arguments. -/
theorem algebraic : Cert.algebraic_KernelIdeal_ReferenceIdeal := by
  intro m ρ m' ρ' _ hagree
  refine ⟨fun c => Cert.ReferenceIdeal.Read.val_main_v91 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨((h c).1).trans (Cert.KernelIdeal.Result.W11_v85 m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.RunStages.run (F := Ideal) m' ρ')
    rw [(hagree c).1, (hagree c).2.1, (hagree c).2.2.1, (hagree c).2.2.2.1,
      (hagree c).2.2.2.2.1, (hagree c).2.2.2.2.2]

end Cert.Proof.Claims

end
-- ==== Proof.lean ====
/-
  The certificate of a two-layer graph convolution: four kernel launches (two projections tiled by row blocks, a
  bias-and-relu and a bias-and-log-softmax epilogue) among the host's degree normalisation, gathers and scatter-adds,
  against the plain host program. The claims are proved in Proof/Claims.lean: the frames by the launches' runs, the
  value claim because each launch leaves in its output what the reference's matching host operations compute, read at
  the extended reals, and the host operations between the launches are the reference's own.
-/
import proofs.«119146_j33277406609480_1_alg».proof.Defs
import proofs.«119146_j33277406609480_1_alg».proof.Proof.Gen.Kernel
import proofs.«119146_j33277406609480_1_alg».proof.Proof.Gen.KernelIdeal
import proofs.«119146_j33277406609480_1_alg».proof.Proof.Gen.ReferenceIdeal
import proofs.«119146_j33277406609480_1_alg».proof.Proof.Gen.Pre_finite_inputs
import proofs.«119146_j33277406609480_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
